-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S20000x101 : Shape := ⟨2, ![20000, 101]⟩
abbrev S101 : Shape := ⟨1, ![101]⟩
abbrev S_ : Shape := ⟨0, ![]⟩

class Facts : Prop where
  bcast_S_S20000x101 : S_.BroadcastsInDim S20000x101 (![] : Fin 0 → Fin S20000x101.rank)
  reducesTo_S20000x101_S_d0_1 : S20000x101.ReducesTo [0, 1] S_
  h_S_ : 0 < S_.numel
  bcast_S_S101 : S_.BroadcastsInDim S101 (![] : Fin 0 → Fin S101.rank)
  reducesTo_S101_S_d0 : S101.ReducesTo [0] S_

variable [Facts]

def fn {F : FTy → Type} [FloatOps F] (main_arg0 : IVec S32x512 32) (main_arg1 : IVec S32x512 32) (main_arg2 : IVec S32x512 32) (main_arg3 : IVec S32x512 32) (main_arg4 : FVec F S20000x101 .f32) (main_arg5 : FVec F S101 .f32) : IVec S_ 1 :=
  let main_v0 : FVec F S20000x101 .f32 := Host.absf main_arg4
  let main_cst : FVec F S_ .f32 := constant S_ .f32 0x7F800000#32
  let main_v1 : FVec F S20000x101 .f32 := broadcastInDim S20000x101 ![] bcast_S_S20000x101 main_cst
  let main_v2 : IVec S20000x101 1 := cmpf .olt main_v0 main_v1
  let main_c : IVec S_ 1 := constantI S_ 1 1#1
  let main_v3 : IVec S_ 1 := (fun x v => Host.reduce IntOp.andi x v reducesTo_S20000x101_S_d0_1 h_S_) main_v2 main_c
  let main_v4 : FVec F S101 .f32 := Host.absf main_arg5
  let main_cst_0 : FVec F S_ .f32 := constant S_ .f32 0x7F800000#32
  let main_v5 : FVec F S101 .f32 := broadcastInDim S101 ![] bcast_S_S101 main_cst_0
  let main_v6 : IVec S101 1 := cmpf .olt main_v4 main_v5
  let main_c_1 : IVec S_ 1 := constantI S_ 1 1#1
  let main_v7 : IVec S_ 1 := (fun x v => Host.reduce IntOp.andi x v reducesTo_S101_S_d0 h_S_) main_v6 main_c_1
  let main_v8 : IVec S_ 1 := andi main_v3 main_v7
  main_v8
-- ==== Kernel.lean ====
abbrev S32x512 : Shape := ⟨2, ![32, 512]⟩
abbrev S20000x101 : Shape := ⟨2, ![20000, 101]⟩
abbrev S101 : Shape := ⟨1, ![101]⟩
abbrev S_ : Shape := ⟨0, ![]⟩
abbrev S32x512x1 : Shape := ⟨3, ![32, 512, 1]⟩
abbrev S32x512x101 : Shape := ⟨3, ![32, 512, 101]⟩
abbrev S1x1x101 : Shape := ⟨3, ![1, 1, 101]⟩
abbrev S32x1x512 : Shape := ⟨3, ![32, 1, 512]⟩
abbrev S32x512x512 : Shape := ⟨3, ![32, 512, 512]⟩
abbrev S1x32x101 : Shape := ⟨3, ![1, 32, 101]⟩
abbrev S1x32x1 : Shape := ⟨3, ![1, 32, 1]⟩
abbrev S1x1x512 : Shape := ⟨3, ![1, 1, 512]⟩
abbrev S1x32x512 : Shape := ⟨3, ![1, 32, 512]⟩
abbrev S32 : Shape := ⟨1, ![32]⟩
abbrev S512 : Shape := ⟨1, ![512]⟩
abbrev S32x101 : Shape := ⟨2, ![32, 101]⟩
abbrev S1x512 : Shape := ⟨2, ![1, 512]⟩
abbrev S32x1 : Shape := ⟨2, ![32, 1]⟩

abbrev nBuf : Space → Nat
  | .hbm => 22
  | .vmem => 10
  | .smem => 0
  | _ => 0

abbrev bufTy : (tb : Table) → Fin (tcTables nBuf tb) → BufTy
  | .hbm, ⟨0, _⟩ => ⟨S32x512, .i32⟩
  | .hbm, ⟨1, _⟩ => ⟨S32x512, .i32⟩
  | .hbm, ⟨2, _⟩ => ⟨S32x512, .i32⟩
  | .hbm, ⟨3, _⟩ => ⟨S32x512, .i32⟩
  | .hbm, ⟨4, _⟩ => ⟨S20000x101, .f32⟩
  | .hbm, ⟨5, _⟩ => ⟨S101, .f32⟩
  | .hbm, ⟨6, _⟩ => ⟨S_, .i32⟩
  | .hbm, ⟨7, _⟩ => ⟨S32x512, .i32⟩
  | .hbm, ⟨8, _⟩ => ⟨S32x512, .i1⟩
  | .hbm, ⟨9, _⟩ => ⟨S_, .i32⟩
  | .hbm, ⟨10, _⟩ => ⟨S32x512, .i32⟩
  | .hbm, ⟨11, _⟩ => ⟨S32x512, .i32⟩
  | .hbm, ⟨12, _⟩ => ⟨S32x512, .i32⟩
  | .hbm, ⟨13, _⟩ => ⟨S32x512x1, .i32⟩
  | .hbm, ⟨14, _⟩ => ⟨S32x512x101, .f32⟩
  | .hbm, ⟨15, _⟩ => ⟨S1x1x101, .f32⟩
  | .hbm, ⟨16, _⟩ => ⟨S32x512x101, .f32⟩
  | .hbm, ⟨17, _⟩ => ⟨S32x512x101, .f32⟩
  | .hbm, ⟨18, _⟩ => ⟨S32x512x1, .i32⟩
  | .hbm, ⟨19, _⟩ => ⟨S32x1x512, .i32⟩
  | .hbm, ⟨20, _⟩ => ⟨S32x1x512, .i32⟩
  | .hbm, ⟨21, _⟩ => ⟨S32x512x512, .f32⟩
  | .local _ .vmem, ⟨0, _⟩ => ⟨S1x32x101, .f32⟩
  | .local _ .vmem, ⟨1, _⟩ => ⟨S1x32x101, .f32⟩
  | .local _ .vmem, ⟨2, _⟩ => ⟨S1x32x1, .i32⟩
  | .local _ .vmem, ⟨3, _⟩ => ⟨S1x32x1, .i32⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x32x512, .f32⟩
  | .local _ .vmem, ⟨9, _⟩ => ⟨S1x32x512, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x101 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S101_S1x1x101_2 : S101.BroadcastsInDim S1x1x101 (![2] : Fin 1 → Fin S1x1x101.rank)
  bcast_S1x1x101_S32x512x101_0_1_2 : S1x1x101.BroadcastsInDim S32x512x101 (![0, 1, 2] : Fin 3 → Fin S32x512x101.rank)
  shapeCasts_S32x512_S32x512x1 : S32x512.ShapeCasts S32x512x1
  shapeCasts_S32x512_S32x1x512 : S32x512.ShapeCasts S32x1x512
  inb_S1x32x1_S1x32x1_0_0_0 : ∀ a, (![0, 0, 0] : Fin 3 → Nat) a + S1x32x1.size a ≤ S1x32x1.size a
  h_S1x32x1 : 0 < S1x32x1.numel
  shapeCasts_S1x32x1_S32 : S1x32x1.ShapeCasts S32
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S1x32x101_S1x32x101_0_0_0 : ∀ a, (![0, 0, 0] : Fin 3 → Nat) a + S1x32x101.size a ≤ S1x32x101.size a
  h_S1x32x101 : 0 < S1x32x101.numel
  shapeCasts_S1x32x101_S32x101 : S1x32x101.ShapeCasts S32x101
  shapeCasts_S512_S1x512 : S512.ShapeCasts S1x512
  shapeCasts_S32_S32x1 : S32.ShapeCasts S32x1
  broadcasts_S1x512_S32x512 : S1x512.Broadcasts S32x512
  broadcasts_S32x1_S32x512 : S32x1.Broadcasts S32x512
  slices_S32x101_o0_0_S32x1 : S32x101.Slices ![0, 0] S32x1
  shapeCasts_S32x1_S32 : S32x1.ShapeCasts S32
  shapeCasts_S32x1_S32x1 : S32x1.ShapeCasts S32x1
  slices_S32x101_o0_1_S32x1 : S32x101.Slices ![0, 1] S32x1
  slices_S32x101_o0_2_S32x1 : S32x101.Slices ![0, 2] S32x1
  slices_S32x101_o0_3_S32x1 : S32x101.Slices ![0, 3] S32x1
  slices_S32x101_o0_4_S32x1 : S32x101.Slices ![0, 4] S32x1
  slices_S32x101_o0_5_S32x1 : S32x101.Slices ![0, 5] S32x1
  slices_S32x101_o0_6_S32x1 : S32x101.Slices ![0, 6] S32x1
  slices_S32x101_o0_7_S32x1 : S32x101.Slices ![0, 7] S32x1
  slices_S32x101_o0_8_S32x1 : S32x101.Slices ![0, 8] S32x1
  slices_S32x101_o0_9_S32x1 : S32x101.Slices ![0, 9] S32x1
  slices_S32x101_o0_10_S32x1 : S32x101.Slices ![0, 10] S32x1
  slices_S32x101_o0_11_S32x1 : S32x101.Slices ![0, 11] S32x1
  slices_S32x101_o0_12_S32x1 : S32x101.Slices ![0, 12] S32x1
  slices_S32x101_o0_13_S32x1 : S32x101.Slices ![0, 13] S32x1
  slices_S32x101_o0_14_S32x1 : S32x101.Slices ![0, 14] S32x1
  slices_S32x101_o0_15_S32x1 : S32x101.Slices ![0, 15] S32x1
  slices_S32x101_o0_16_S32x1 : S32x101.Slices ![0, 16] S32x1
  slices_S32x101_o0_17_S32x1 : S32x101.Slices ![0, 17] S32x1
  slices_S32x101_o0_18_S32x1 : S32x101.Slices ![0, 18] S32x1
  slices_S32x101_o0_19_S32x1 : S32x101.Slices ![0, 19] S32x1
  slices_S32x101_o0_20_S32x1 : S32x101.Slices ![0, 20] S32x1
  slices_S32x101_o0_21_S32x1 : S32x101.Slices ![0, 21] S32x1
  slices_S32x101_o0_22_S32x1 : S32x101.Slices ![0, 22] S32x1
  slices_S32x101_o0_23_S32x1 : S32x101.Slices ![0, 23] S32x1
  slices_S32x101_o0_24_S32x1 : S32x101.Slices ![0, 24] S32x1
  slices_S32x101_o0_25_S32x1 : S32x101.Slices ![0, 25] S32x1
  slices_S32x101_o0_26_S32x1 : S32x101.Slices ![0, 26] S32x1
  slices_S32x101_o0_27_S32x1 : S32x101.Slices ![0, 27] S32x1
  slices_S32x101_o0_28_S32x1 : S32x101.Slices ![0, 28] S32x1
  slices_S32x101_o0_29_S32x1 : S32x101.Slices ![0, 29] S32x1
  slices_S32x101_o0_30_S32x1 : S32x101.Slices ![0, 30] S32x1
  slices_S32x101_o0_31_S32x1 : S32x101.Slices ![0, 31] S32x1
  slices_S32x101_o0_32_S32x1 : S32x101.Slices ![0, 32] S32x1
  slices_S32x101_o0_33_S32x1 : S32x101.Slices ![0, 33] S32x1
  slices_S32x101_o0_34_S32x1 : S32x101.Slices ![0, 34] S32x1
  slices_S32x101_o0_35_S32x1 : S32x101.Slices ![0, 35] S32x1
  slices_S32x101_o0_36_S32x1 : S32x101.Slices ![0, 36] S32x1
  slices_S32x101_o0_37_S32x1 : S32x101.Slices ![0, 37] S32x1
  slices_S32x101_o0_38_S32x1 : S32x101.Slices ![0, 38] S32x1
  slices_S32x101_o0_39_S32x1 : S32x101.Slices ![0, 39] S32x1
  slices_S32x101_o0_40_S32x1 : S32x101.Slices ![0, 40] S32x1
  slices_S32x101_o0_41_S32x1 : S32x101.Slices ![0, 41] S32x1
  slices_S32x101_o0_42_S32x1 : S32x101.Slices ![0, 42] S32x1
  slices_S32x101_o0_43_S32x1 : S32x101.Slices ![0, 43] S32x1
  slices_S32x101_o0_44_S32x1 : S32x101.Slices ![0, 44] S32x1
  slices_S32x101_o0_45_S32x1 : S32x101.Slices ![0, 45] S32x1
  slices_S32x101_o0_46_S32x1 : S32x101.Slices ![0, 46] S32x1
  slices_S32x101_o0_47_S32x1 : S32x101.Slices ![0, 47] S32x1
  slices_S32x101_o0_48_S32x1 : S32x101.Slices ![0, 48] S32x1
  slices_S32x101_o0_49_S32x1 : S32x101.Slices ![0, 49] S32x1
  slices_S32x101_o0_50_S32x1 : S32x101.Slices ![0, 50] S32x1
  slices_S32x101_o0_51_S32x1 : S32x101.Slices ![0, 51] S32x1
  slices_S32x101_o0_52_S32x1 : S32x101.Slices ![0, 52] S32x1
  slices_S32x101_o0_53_S32x1 : S32x101.Slices ![0, 53] S32x1
  slices_S32x101_o0_54_S32x1 : S32x101.Slices ![0, 54] S32x1
  slices_S32x101_o0_55_S32x1 : S32x101.Slices ![0, 55] S32x1
  slices_S32x101_o0_56_S32x1 : S32x101.Slices ![0, 56] S32x1
  slices_S32x101_o0_57_S32x1 : S32x101.Slices ![0, 57] S32x1
  slices_S32x101_o0_58_S32x1 : S32x101.Slices ![0, 58] S32x1
  slices_S32x101_o0_59_S32x1 : S32x101.Slices ![0, 59] S32x1
  slices_S32x101_o0_60_S32x1 : S32x101.Slices ![0, 60] S32x1
  slices_S32x101_o0_61_S32x1 : S32x101.Slices ![0, 61] S32x1
  slices_S32x101_o0_62_S32x1 : S32x101.Slices ![0, 62] S32x1
  slices_S32x101_o0_63_S32x1 : S32x101.Slices ![0, 63] S32x1
  slices_S32x101_o0_64_S32x1 : S32x101.Slices ![0, 64] S32x1
  slices_S32x101_o0_65_S32x1 : S32x101.Slices ![0, 65] S32x1
  slices_S32x101_o0_66_S32x1 : S32x101.Slices ![0, 66] S32x1
  slices_S32x101_o0_67_S32x1 : S32x101.Slices ![0, 67] S32x1
  slices_S32x101_o0_68_S32x1 : S32x101.Slices ![0, 68] S32x1
  slices_S32x101_o0_69_S32x1 : S32x101.Slices ![0, 69] S32x1
  slices_S32x101_o0_70_S32x1 : S32x101.Slices ![0, 70] S32x1
  slices_S32x101_o0_71_S32x1 : S32x101.Slices ![0, 71] S32x1
  slices_S32x101_o0_72_S32x1 : S32x101.Slices ![0, 72] S32x1
  slices_S32x101_o0_73_S32x1 : S32x101.Slices ![0, 73] S32x1
  slices_S32x101_o0_74_S32x1 : S32x101.Slices ![0, 74] S32x1
  slices_S32x101_o0_75_S32x1 : S32x101.Slices ![0, 75] S32x1
  slices_S32x101_o0_76_S32x1 : S32x101.Slices ![0, 76] S32x1
  slices_S32x101_o0_77_S32x1 : S32x101.Slices ![0, 77] S32x1
  slices_S32x101_o0_78_S32x1 : S32x101.Slices ![0, 78] S32x1
  slices_S32x101_o0_79_S32x1 : S32x101.Slices ![0, 79] S32x1
  slices_S32x101_o0_80_S32x1 : S32x101.Slices ![0, 80] S32x1
  slices_S32x101_o0_81_S32x1 : S32x101.Slices ![0, 81] S32x1
  slices_S32x101_o0_82_S32x1 : S32x101.Slices ![0, 82] S32x1
  slices_S32x101_o0_83_S32x1 : S32x101.Slices ![0, 83] S32x1
  slices_S32x101_o0_84_S32x1 : S32x101.Slices ![0, 84] S32x1
  slices_S32x101_o0_85_S32x1 : S32x101.Slices ![0, 85] S32x1
  slices_S32x101_o0_86_S32x1 : S32x101.Slices ![0, 86] S32x1
  slices_S32x101_o0_87_S32x1 : S32x101.Slices ![0, 87] S32x1
  slices_S32x101_o0_88_S32x1 : S32x101.Slices ![0, 88] S32x1
  slices_S32x101_o0_89_S32x1 : S32x101.Slices ![0, 89] S32x1
  slices_S32x101_o0_90_S32x1 : S32x101.Slices ![0, 90] S32x1
  slices_S32x101_o0_91_S32x1 : S32x101.Slices ![0, 91] S32x1
  slices_S32x101_o0_92_S32x1 : S32x101.Slices ![0, 92] S32x1
  slices_S32x101_o0_93_S32x1 : S32x101.Slices ![0, 93] S32x1
  slices_S32x101_o0_94_S32x1 : S32x101.Slices ![0, 94] S32x1
  slices_S32x101_o0_95_S32x1 : S32x101.Slices ![0, 95] S32x1
  slices_S32x101_o0_96_S32x1 : S32x101.Slices ![0, 96] S32x1
  slices_S32x101_o0_97_S32x1 : S32x101.Slices ![0, 97] S32x1
  slices_S32x101_o0_98_S32x1 : S32x101.Slices ![0, 98] S32x1
  slices_S32x101_o0_99_S32x1 : S32x101.Slices ![0, 99] S32x1
  slices_S32x101_o0_100_S32x1 : S32x101.Slices ![0, 100] S32x1
  reduces_S32x512_S32 : S32x512.Reduces [1] S32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  gather_S20000x101_S32x512x1_S32x512x101_2_0_n_n_0_2_1101_wf : GatherDims.WF S20000x101 S32x512x1 S32x512x101 [2] [0] [] [0] [] 2 ![1, 101]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x101.size a ≤ S32x512x101.size a
  hwx0_0 : ∀ i : grid0.Coords, EltTy.bits .f32 = 32 ∨ (Rect.block (s := S32x512x101) S1x32x101.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1.size a ≤ S32x512x1.size a
  hwx0_1 : ∀ i : grid0.Coords, EltTy.bits .i32 = 32 ∨ (Rect.block (s := S32x512x1) S1x32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .i32 = 32 ∨ (Rect.block (s := S32x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .i32 = 32 ∨ (Rect.block (s := S32x1x512) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x512.size a ≤ S32x512x512.size a
  hwx0_4 : ∀ i : grid0.Coords, EltTy.bits .f32 = 32 ∨ (Rect.block (s := S32x512x512) S1x32x512.size (cc0_transform_4 i) (hinb0_4 i)).WholeWords (EltTy.packing .f32)

variable [Facts₀]

def gather_S20000x101_S32x512x1_S32x512x101_2_0_n_n_0_2_1101 : GatherDims S20000x101 S32x512x1 S32x512x101 where
  offsetDims := [2]
  collapsedSliceDims := [0]
  operandBatchingDims := []
  startIndicesBatchingDims := []
  startIndexMap := [0]
  indexVectorDim := 2
  sliceSizes := ![1, 101]
  wf := gather_S20000x101_S32x512x1_S32x512x101_2_0_n_n_0_2_1101_wf

abbrev win0_0 : Pipeline.Window sig grid0 :=
  Pipeline.Window.ofSpec (Memref.whole main_v9) S1x32x101.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512 : Shape := ⟨2, ![32, 512]⟩
abbrev S20000x101 : Shape := ⟨2, ![20000, 101]⟩
abbrev S101 : Shape := ⟨1, ![101]⟩
abbrev S_ : Shape := ⟨0, ![]⟩
abbrev S32x512x1 : Shape := ⟨3, ![32, 512, 1]⟩
abbrev S32x512x101 : Shape := ⟨3, ![32, 512, 101]⟩
abbrev S1x1x101 : Shape := ⟨3, ![1, 1, 101]⟩
abbrev S32x1x512 : Shape := ⟨3, ![32, 1, 512]⟩
abbrev S32x512x512 : Shape := ⟨3, ![32, 512, 512]⟩
abbrev S32x512x512x1 : Shape := ⟨4, ![32, 512, 512, 1]⟩
abbrev S1 : Shape := ⟨1, ![1]⟩
abbrev S1x1x1x1 : Shape := ⟨4, ![1, 1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S32x512, .i32⟩
  | .hbm, ⟨2, _⟩ => ⟨S32x512, .i32⟩
  | .hbm, ⟨3, _⟩ => ⟨S32x512, .i32⟩
  | .hbm, ⟨4, _⟩ => ⟨S20000x101, .f32⟩
  | .hbm, ⟨5, _⟩ => ⟨S101, .f32⟩
  | .hbm, ⟨6, _⟩ => ⟨S_, .i32⟩
  | .hbm, ⟨7, _⟩ => ⟨S32x512, .i32⟩
  | .hbm, ⟨8, _⟩ => ⟨S32x512, .i1⟩
  | .hbm, ⟨9, _⟩ => ⟨S_, .i32⟩
  | .hbm, ⟨10, _⟩ => ⟨S32x512, .i32⟩
  | .hbm, ⟨11, _⟩ => ⟨S32x512, .i32⟩
  | .hbm, ⟨12, _⟩ => ⟨S32x512, .i32⟩
  | .hbm, ⟨13, _⟩ => ⟨S32x512x1, .i32⟩
  | .hbm, ⟨14, _⟩ => ⟨S32x512x101, .f32⟩
  | .hbm, ⟨15, _⟩ => ⟨S1x1x101, .f32⟩
  | .hbm, ⟨16, _⟩ => ⟨S32x512x101, .f32⟩
  | .hbm, ⟨17, _⟩ => ⟨S32x512x101, .f32⟩
  | .hbm, ⟨18, _⟩ => ⟨S32x1x512, .i32⟩
  | .hbm, ⟨19, _⟩ => ⟨S32x512x1, .i32⟩
  | .hbm, ⟨20, _⟩ => ⟨S32x512x512, .i32⟩
  | .hbm, ⟨21, _⟩ => ⟨S32x512x512, .i32⟩
  | .hbm, ⟨22, _⟩ => ⟨S32x512x512, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S32x512x512, .i32⟩
  | .hbm, ⟨27, _⟩ => ⟨S32x512x512, .i32⟩
  | .hbm, ⟨28, _⟩ => ⟨S_, .i32⟩
  | .hbm, ⟨29, _⟩ => ⟨S32x512x512, .i32⟩
  | .hbm, ⟨30, _⟩ => ⟨S32x512x512, .i32⟩
  | .hbm, ⟨31, _⟩ => ⟨S_, .i32⟩
  | .hbm, ⟨32, _⟩ => ⟨S32x512x512, .i32⟩
  | .hbm, ⟨33, _⟩ => ⟨S32x512x512, .i32⟩
  | .hbm, ⟨34, _⟩ => ⟨S_, .i32⟩
  | .hbm, ⟨35, _⟩ => ⟨S32x512x512, .i32⟩
  | .hbm, ⟨36, _⟩ => ⟨S32x512x512, .i1⟩
  | .hbm, ⟨37, _⟩ => ⟨S_, .i32⟩
  | .hbm, ⟨38, _⟩ => ⟨S32x512x512, .i32⟩
  | .hbm, ⟨39, _⟩ => ⟨S32x512x512, .i32⟩
  | .hbm, ⟨40, _⟩ => ⟨S32x512x512, .i32⟩
  | .hbm, ⟨41, _⟩ => ⟨S32x512x512x1, .i32⟩
  | .hbm, ⟨42, _⟩ => ⟨S1, .i32⟩
  | .hbm, ⟨43, _⟩ => ⟨S_, .i32⟩
  | .hbm, ⟨44, _⟩ => ⟨S32x512x512x1, .i32⟩
  | .hbm, ⟨45, _⟩ => ⟨S32x512x512x1, .i1⟩
  | .hbm, ⟨46, _⟩ => ⟨S1x1x1x1, .i32⟩
  | .hbm, ⟨47, _⟩ => ⟨S32x512x512x1, .i32⟩
  | .hbm, ⟨48, _⟩ => ⟨S32x512x512x1, .i1⟩
  | .hbm, ⟨49, _⟩ => ⟨S32x512x512x1, .i1⟩
  | .hbm, ⟨50, _⟩ => ⟨S_, .i1⟩
  | .hbm, ⟨51, _⟩ => ⟨S32x512x512, .i1⟩
  | .hbm, ⟨52, _⟩ => ⟨S32x512x512, .f32⟩
  | .hbm, ⟨53, _⟩ => ⟨S_, .f32⟩
  | .hbm, ⟨54, _⟩ => ⟨S32x512x512, .f32⟩
  | .hbm, ⟨55, _⟩ => ⟨S32x512x512, .f32⟩
  | .hbm, ⟨56, _⟩ => ⟨S32x1x512, .i32⟩
  | .hbm, ⟨57, _⟩ => ⟨S32x1x512, .f32⟩
  | .hbm, ⟨58, _⟩ => ⟨S_, .f32⟩
  | .hbm, ⟨59, _⟩ => ⟨S32x1x512, .f32⟩
  | .hbm, ⟨60, _⟩ => ⟨S32x1x512, .f32⟩
  | .hbm, ⟨61, _⟩ => ⟨S32x512x512, .f32⟩
  | .hbm, ⟨62, _⟩ => ⟨S32x512x512, .f32⟩
  | .hbm, ⟨63, _⟩ => ⟨S_, .f32⟩
  | .hbm, ⟨64, _⟩ => ⟨S32x512, .f32⟩
  | .hbm, ⟨65, _⟩ => ⟨S_, .f32⟩
  | .hbm, ⟨66, _⟩ => ⟨S32x512, .f32⟩
  | .hbm, ⟨67, _⟩ => ⟨S32x512, .f32⟩
  | .hbm, ⟨68, _⟩ => ⟨S32x512x1, .f32⟩
  | .hbm, ⟨69, _⟩ => ⟨S32x512x512, .f32⟩
  | .hbm, ⟨70, _⟩ => ⟨S32x512x512, .f32⟩
  | .hbm, ⟨71, _⟩ => ⟨S32x512x512, .f32⟩
  | .hbm, ⟨72, _⟩ => ⟨S_, .f32⟩
  | .hbm, ⟨73, _⟩ => ⟨S32x512, .f32⟩
  | .hbm, ⟨74, _⟩ => ⟨S32x512x1, .f32⟩
  | .hbm, ⟨75, _⟩ => ⟨S32x512x512, .f32⟩
  | .hbm, ⟨76, _⟩ => ⟨S32x512x512, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_4 : Ref sig .tc := ⟨.hbm, 63, rfl⟩
abbrev main_v25 : Ref sig .tc := ⟨.hbm, 64, rfl⟩
abbrev main_cst_5 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_6 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S101_S1x1x101_2 : S101.BroadcastsInDim S1x1x101 (![2] : Fin 1 → Fin S1x1x101.rank)
  bcast_S1x1x101_S32x512x101_0_1_2 : S1x1x101.BroadcastsInDim S32x512x101 (![0, 1, 2] : Fin 3 → Fin S32x512x101.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  bcast_S32x512x1_S32x512x512_0_1_2 : S32x512x1.BroadcastsInDim S32x512x512 (![0, 1, 2] : Fin 3 → Fin S32x512x512.rank)
  bcast_S_S32x512x512 : S_.BroadcastsInDim S32x512x512 (![] : Fin 0 → Fin S32x512x512.rank)
  shapeCasts_S32x512x512_S32x512x512x1 : S32x512x512.ShapeCasts S32x512x512x1
  bcast_S_S32x512x512x1 : S_.BroadcastsInDim S32x512x512x1 (![] : Fin 0 → Fin S32x512x512x1.rank)
  bcast_S1_S1x1x1x1_3 : S1.BroadcastsInDim S1x1x1x1 (![3] : Fin 1 → Fin S1x1x1x1.rank)
  bcast_S1x1x1x1_S32x512x512x1_0_1_2_3 : S1x1x1x1.BroadcastsInDim S32x512x512x1 (![0, 1, 2, 3] : Fin 4 → Fin S32x512x512x1.rank)
  reducesTo_S32x512x512x1_S32x512x512_d3 : S32x512x512x1.ReducesTo [3] S32x512x512
  h_S_ : 0 < S_.numel
  bcast_S_S32x1x512 : S_.BroadcastsInDim S32x1x512 (![] : Fin 0 → Fin S32x1x512.rank)
  reducesTo_S32x512x512_S32x512_d2 : S32x512x512.ReducesTo [2] S32x512
  gather_S20000x101_S32x512x1_S32x512x101_2_0_n_n_0_2_1101_wf : GatherDims.WF S20000x101 S32x512x1 S32x512x101 [2] [0] [] [0] [] 2 ![1, 101]
  gather_S32x512x101_S32x512x512x1_S32x512x512_n_2_01_01_2_3_111_wf : GatherDims.WF S32x512x101 S32x512x512x1 S32x512x512 [] [2] [0, 1] [2] [0, 1] 3 ![1, 1, 1]

variable [Facts₀]

def gather_S20000x101_S32x512x1_S32x512x101_2_0_n_n_0_2_1101 : GatherDims S20000x101 S32x512x1 S32x512x101 where
  offsetDims := [2]
  collapsedSliceDims := [0]
  operandBatchingDims := []
  startIndicesBatchingDims := []
  startIndexMap := [0]
  indexVectorDim := 2
  sliceSizes := ![1, 101]
  wf := gather_S20000x101_S32x512x1_S32x512x101_2_0_n_n_0_2_1101_wf
def gather_S32x512x101_S32x512x512x1_S32x512x512_n_2_01_01_2_3_111 : GatherDims S32x512x101 S32x512x512x1 S32x512x512 where
  offsetDims := []
  collapsedSliceDims := [2]
  operandBatchingDims := [0, 1]
  startIndicesBatchingDims := [0, 1]
  startIndexMap := [2]
  indexVectorDim := 3
  sliceSizes := ![1, 1, 1]
  wf := gather_S32x512x101_S32x512x512x1_S32x512x512_n_2_01_01_2_3_111_wf

class Facts : Prop extends Facts₀ where

variable [Facts]
-- ==== Proof.Window.lean ====
/-
  The window index of the time-attention lookup, as facts about 32-bit words.

  A context time stamp `ct` and a target time stamp `tt` give the word
  `widx ct tt = clamp (ct − tt, −50, 50) + 50` (subtraction and addition wrapping, the clamp signed).
  Whatever the two stamps are, the clamp lies in [−50, 50] as a signed integer, so adding 50 does not wrap and
  `widx ct tt` is one of 0, …, 100: a column of a 101-wide row.

  Two ways of picking "the row's entry in column `widx`" are met later.  One overwrites a running value at the one
  column whose number equals the word: a chain of compare-and-select steps for columns 1, 2, …, 100, seeded with
  column 0.  After the steps up to column `n` the running value is the entry in column `x` if `x ≤ n` and the
  seed otherwise (`select_step`); after all hundred it is the entry in column `x`.  The other indexes the row by
  the word read as a signed integer, after a test that it is negative (then 101 is added), a range test against
  [0, 100], and a clamp into [0, 100]: for a word in 0, …, 100 the first test fails, the second holds, and the
  clamp is the identity.
-/
import Idealize.ShloMosaic.PureOps.Ideal
import Idealize.ShloMosaic.Lib.ValueIdx

namespace Cert.TimeWindow

open Idealize.ShloMosaic

/-- `clamp (ct − tt, −50, 50) + 50` on 32-bit words (the word `4294967246` is −50). -/
def widx (ct tt : BitVec 32) : BitVec 32 :=
  IntOp.addi (IntOp.minsi 50#32 (IntOp.maxsi 4294967246#32 (IntOp.subi ct tt))) 50#32

/-- The signed clamp of any word to [−50, 50] lies in that interval. -/
theorem clamp_toInt (d : BitVec 32) :
    -50 ≤ (IntOp.minsi 50#32 (IntOp.maxsi 4294967246#32 d)).toInt
      ∧ (IntOp.minsi 50#32 (IntOp.maxsi 4294967246#32 d)).toInt ≤ 50 := by
  have h50 : (50#32 : BitVec 32).toInt = 50 := by decide
  have hm50 : (4294967246#32 : BitVec 32).toInt = -50 := by decide
  unfold IntOp.minsi IntOp.maxsi
  simp only [BitVec.slt, decide_eq_true_eq]
  split_ifs <;> omega

/-- A word whose signed value is in [−50, 50], plus 50, has that sum as its signed value: no wrap. -/
theorem toInt_add_50 (x : BitVec 32) (h1 : -50 ≤ x.toInt) (h2 : x.toInt ≤ 50) :
    (x + 50#32).toInt = x.toInt + 50 := by
  have h50 : (50#32 : BitVec 32).toInt = 50 := by decide
  rw [BitVec.toInt_add, h50]
  unfold Int.bmod
  norm_num
  omega

/-- The window index, read signed, is between 0 and 100. -/
theorem widx_toInt (ct tt : BitVec 32) : 0 ≤ (widx ct tt).toInt ∧ (widx ct tt).toInt ≤ 100 := by
  obtain ⟨h1, h2⟩ := clamp_toInt (IntOp.subi ct tt)
  unfold widx IntOp.addi
  rw [toInt_add_50 _ h1 h2]
  omega

/-- A word that is not negative as a signed integer has its unsigned value as its signed value. -/
theorem toInt_eq_toNat_of_nonneg (x : BitVec 32) (h0 : 0 ≤ x.toInt) : x.toInt = (x.toNat : ℤ) := by
  have hlt := x.isLt
  rw [BitVec.toInt_eq_toNat_cond] at h0 ⊢
  split_ifs at h0 ⊢ with h
  · rfl
  · exfalso; omega

/-- So the window index's signed and unsigned values agree … -/
theorem widx_toInt_eq (ct tt : BitVec 32) : (widx ct tt).toInt = ((widx ct tt).toNat : ℤ) :=
  toInt_eq_toNat_of_nonneg _ (widx_toInt ct tt).1

/-- … and it is at most 100 as a natural number: a column of a 101-wide row. -/
theorem widx_toNat_le (ct tt : BitVec 32) : (widx ct tt).toNat ≤ 100 := by
  have h := (widx_toInt ct tt).2
  rw [widx_toInt_eq] at h
  omega

/-- The column the window index names. -/
def wcol (ct tt : BitVec 32) : Fin 101 := ⟨(widx ct tt).toNat, Nat.lt_succ_of_le (widx_toNat_le ct tt)⟩

/-- Read signed and clamped into [0, 100], the window index is itself. -/
theorem widx_clamped (ct tt : BitVec 32) : min (widx ct tt).toInt.toNat 100 = (widx ct tt).toNat := by
  have h := widx_toNat_le ct tt
  rw [widx_toInt_eq, Int.toNat_natCast]
  exact Nat.min_eq_left h

/-- The test "is the window index negative" fails. -/
theorem widx_not_neg (ct tt : BitVec 32) : IntOp.cmpi .slt (widx ct tt) 0#32 = 0#1 := by
  have h := (widx_toInt ct tt).1
  have h0 : (0#32 : BitVec 32).toInt = 0 := by decide
  have hb : (widx ct tt).slt 0#32 = false := by
    simp only [BitVec.slt, h0]
    exact decide_eq_false (by omega)
  show BitVec.ofBool ((widx ct tt).slt 0#32) = 0#1
  rw [hb]; rfl

/-- The test "is the window index at least 0" holds. -/
theorem widx_ge_zero (ct tt : BitVec 32) : IntOp.cmpi .sge (widx ct tt) 0#32 = 1#1 := by
  have h := (widx_toInt ct tt).1
  have h0 : (0#32 : BitVec 32).toInt = 0 := by decide
  have hb : (0#32 : BitVec 32).sle (widx ct tt) = true := by
    simp only [BitVec.sle, h0]
    exact decide_eq_true h
  show BitVec.ofBool ((0#32 : BitVec 32).sle (widx ct tt)) = 1#1
  rw [hb]; rfl

/-- The test "is the window index at most 100" holds. -/
theorem widx_le_100 (ct tt : BitVec 32) : IntOp.cmpi .sle (widx ct tt) 100#32 = 1#1 := by
  have h := (widx_toInt ct tt).2
  have h100 : (100#32 : BitVec 32).toInt = 100 := by decide
  have hb : (widx ct tt).sle 100#32 = true := by
    simp only [BitVec.sle, h100]
    exact decide_eq_true h
  show BitVec.ofBool ((widx ct tt).sle 100#32) = 1#1
  rw [hb]; rfl

/-! ## One compare-and-select step on a word -/

/-- Equality of a word with a small literal, as a one-bit word. -/
theorem cmpi_eq_lit (x : BitVec 32) (w : ℕ) (hw : w ≤ 100) :
    IntOp.cmpi .eq x (BitVec.ofNat 32 w) = if x.toNat = w then 1#1 else 0#1 := by
  have hmod : w % 2 ^ 32 = w := Nat.mod_eq_of_lt (by omega)
  by_cases hx : x = BitVec.ofNat 32 w
  · have hn : x.toNat = w := by rw [hx, BitVec.toNat_ofNat, hmod]
    have hb : (x == BitVec.ofNat 32 w) = true := by rw [hx]; exact beq_self_eq_true _
    rw [if_pos hn]
    show BitVec.ofBool (x == BitVec.ofNat 32 w) = 1#1
    rw [hb]; rfl
  · have hn : ¬ x.toNat = w := fun e => hx (BitVec.eq_of_toNat_eq (by rw [e, BitVec.toNat_ofNat, hmod]))
    have hb : (x == BitVec.ofNat 32 w) = false := beq_eq_false_iff_ne.mpr hx
    rw [if_neg hn]
    show BitVec.ofBool (x == BitVec.ofNat 32 w) = 0#1
    rw [hb]; rfl

/-- The seed: before any step the running value is the entry in column 0, which is the entry in column
    "`x` if `x ≤ 0`, else 0". -/
theorem select_seed {α : Type} (col : ℕ → α) (x : BitVec 32) :
    col 0 = col (if x.toNat ≤ 0 then x.toNat else 0) := by
  by_cases h : x.toNat ≤ 0
  · rw [if_pos h, Nat.le_zero.mp h]
  · rw [if_neg h]

/-- ONE STEP: if the running value is the entry in column "`x` if `x ≤ n`, else 0", then overwriting it with
    column `n + 1`'s entry exactly when `x = n + 1` makes it the entry in column "`x` if `x ≤ n + 1`, else 0". -/
theorem select_step {α : Type} (col : ℕ → α) (x : BitVec 32) (n : ℕ) (hn : n + 1 ≤ 100) (acc : α)
    (h : acc = col (if x.toNat ≤ n then x.toNat else 0)) :
    Scalar.select (IntOp.cmpi .eq x (BitVec.ofNat 32 (n + 1))) (col (n + 1)) acc
      = col (if x.toNat ≤ n + 1 then x.toNat else 0) := by
  rw [cmpi_eq_lit x (n + 1) hn]
  by_cases hx : x.toNat = n + 1
  · rw [if_pos hx, ValueIdx.select_one, if_pos (by omega), hx]
  · rw [if_neg hx, ValueIdx.select_zero, h]
    by_cases hle : x.toNat ≤ n
    · rw [if_pos hle, if_pos (by omega)]
    · rw [if_neg hle, if_neg (by omega)]

end Cert.TimeWindow
-- ==== Proof.Spec.lean ====
/-
  What the time-attention operator computes, as ONE function of four arrays, index by index.

  `A : [32, 512, 101]` is the per-target time-attention curve (a row of 101 window entries for each target token),
  `tts, cts, mask : [32, 512]` the target time stamps, the context time stamps and the context mask.  For a batch
  `b`, a target `t` and a context `c` the SCORE is the curve's entry in the column the window index of the two time
  stamps names (Window.lean: always one of 0, …, 100), plus the mask bit as a number times the constant −10⁹
  (the f32 pattern `0xCE6E6B28`, never evaluated here: both programs carry the same word).  The result at
  `(b, t, c)` is the softmax over `c` of row `(b, t)`'s 512 scores: `exp (score − max) / Σ exp (score − max)`, the
  maximum folded from −∞ (the pattern `0xFF800000`), on the extended reals with their exact operations.
  Nothing here needs the scores to be finite: the two programs are compared as the same expression of the same
  scores, not through an algebraic law.
-/
import Idealize.ShloMosaic.PureOps.Ideal
import Idealize.ShloMosaic.PureOps.Ideal.Laws
import Idealize.ShloMosaic.Lib.ValueIdx
import proofs.«400888_j33715493274067_2_alg».proof.Proof.Window

noncomputable section

open scoped BigOperators

namespace Cert.TimeAttention

open Idealize.ShloMosaic Idealize.ShloMosaic.ValueIdx Cert.TimeWindow

/-- A row's maximum, folded from −∞. -/
def rowMax (f : Fin 512 → EReal) : EReal :=
  (Finset.univ : Finset (Fin 512)).fold max (Ideal.ofBits .f32 0xFF800000#32) f

/-- The softmax of a row of 512 extended reals, at one position. -/
def softmaxRow (f : Fin 512 → EReal) (c : Fin 512) : EReal :=
  Ideal.div (Ideal.exp (f c - rowMax f)) (∑ k : Fin 512, Ideal.exp (f k - rowMax f))

/-- Taking the maximum with −∞ once more changes nothing: the fold already starts there. -/
theorem max_rowMax (f : Fin 512 → EReal) : max (Ideal.ofBits .f32 0xFF800000#32) (rowMax f) = rowMax f := by
  apply max_eq_right
  unfold rowMax
  rw [Finset.le_fold_max]
  exact Or.inl le_rfl

/-- The masked score of target `t` against context `c` in batch `b`. -/
def score (A : FVec Ideal ⟨3, ![32, 512, 101]⟩ .f32) (tts cts mask : IVec ⟨2, ![32, 512]⟩ 32)
    (b : Fin 32) (t c : Fin 512) : EReal :=
  A (ix3 b t (wcol (cts (ix2 b c)) (tts (ix2 b t))))
    + FloatOps.sitofp (F := Ideal) .f32 (mask (ix2 b c)) * Ideal.ofBits .f32 0xCE6E6B28#32

/-- THE RESULT: the softmax over the context axis of each target's masked scores. -/
def G (A : FVec Ideal ⟨3, ![32, 512, 101]⟩ .f32) (tts cts mask : IVec ⟨2, ![32, 512]⟩ 32) :
    FVec Ideal ⟨3, ![32, 512, 512]⟩ .f32 :=
  fun j => softmaxRow (score A tts cts mask (j 0) (j 1)) (j 2)

end Cert.TimeAttention

end
-- ==== Proof.Overwrite.lean ====
/-
  The select-overwrite lookup on a whole tile.

  `row : [32, 101]` holds, for each of a tile's 32 target tokens, the 101 entries of its time-attention curve, and
  `x : [32, 512]` the window index of each (target, context) pair.  The lookup starts from column 0 of `row` broadcast
  along the 512 contexts and, for each column `w = 1, …, 100` in turn, overwrites the running tile with column `w`
  (broadcast the same way) at the positions where `x = w`.  A column is taken out of `row` as a [32, 1] slice, viewed
  as [32] and back as [32, 1] (twice), and broadcast to [32, 512]: at `(r, c)` that is `row (r, w)`
  (`column_apply`).  `UpTo row x n acc` says that `acc` is the running tile after the steps up to column `n`: at
  `(r, c)` it holds row `r`'s entry in column `x (r, c)` if that is at most `n`, and the seed (column 0) otherwise.
  The seed satisfies `UpTo … 0` and each step takes `UpTo … n` to `UpTo … (n + 1)` (Window.lean's `select_step` at
  every position), so after the hundredth step the tile holds `row (r, x (r, c))` wherever `x (r, c) ≤ 100`.
-/
import Idealize.ShloMosaic.PureOps.Ideal
import Idealize.ShloMosaic.Lib.ValueIdx
import Idealize.ShloMosaic.Lib.Pipeline.Value
import proofs.«400888_j33715493274067_2_alg».proof.Proof.Window

namespace Cert.TimeWindow

open Idealize.ShloMosaic Idealize.ShloMosaic.ValueIdx

/-- A tile's curves: 32 targets by 101 window entries. -/
abbrev Curves : Shape := ⟨2, ![32, 101]⟩
/-- One column of them, as a [32, 1] array. -/
abbrev Column : Shape := ⟨2, ![32, 1]⟩
/-- The same column as a [32] vector. -/
abbrev Lanes : Shape := ⟨1, ![32]⟩
/-- A tile: 32 targets by 512 contexts. -/
abbrev Tile : Shape := ⟨2, ![32, 512]⟩

variable {α : Type}

/-- Row `r`'s entry in column `w` (a column number past 100 reads column 100; no such number is ever asked for). -/
def entry (row : Curves.Idx → α) (r : Fin 32) (w : ℕ) : α := row (ix2 r ⟨min w 100, by omega⟩)

/-- A column cut out of the curves, viewed flat and back, and broadcast along the contexts, holds at `(r, c)` row
    `r`'s entry in that column. -/
theorem column_apply (row : Curves.Idx → α) (w : ℕ) (hw : w ≤ 100) (hsl : Curves.Slices ![0, w] Column)
    (h1 : Column.ShapeCasts Lanes) (h2 : Lanes.ShapeCasts Column) (h3 : Column.ShapeCasts Column)
    (hb : Column.Broadcasts Tile) (r : Fin 32) (c : Fin 512) :
    broadcastTo Tile (shapeCast Column (shapeCast Column (shapeCast Lanes (extractStridedSlice Column ![0, w] row hsl) h1) h2) h3) hb
        (ix2 r c)
      = entry row r w := by
  rw [shapeCast_self, shapeCast_shapeCast]
  refine (broadcastTo_apply _ hb (ix2 r c) (ix2 r (0 : Fin 1)) ?_).trans ?_
  · intro a
    match a with
    | ⟨0, _⟩ => rfl
    | ⟨1, _⟩ => rfl
  refine (extractStridedSlice_apply ![0, w] row hsl (ix2 r (0 : Fin 1)) (ix2 r ⟨w, by omega⟩) ?_).trans ?_
  · intro a
    match a with
    | ⟨0, _⟩ => show r.val = 0 + r.val; omega
    | ⟨1, _⟩ => show w = w + 0; omega
  · have e : (⟨w, by omega⟩ : Fin 101) = ⟨min w 100, by omega⟩ := Fin.ext (Nat.min_eq_left hw).symm
    exact congrArg (fun k => row (ix2 r k)) e

/-- The running tile after the steps up to column `n`. -/
def UpTo (row : Curves.Idx → α) (x : IVec Tile 32) (n : ℕ) (acc : Tile.Idx → α) : Prop :=
  ∀ (r : Fin 32) (c : Fin 512),
    acc (ix2 r c) = entry row r (if (x (ix2 r c)).toNat ≤ n then (x (ix2 r c)).toNat else 0)

/-- The seed, column 0 broadcast along the contexts, is the running tile before any step. -/
theorem upTo_seed (row : Curves.Idx → α) (x : IVec Tile 32) (hsl : Curves.Slices ![0, 0] Column)
    (h1 : Column.ShapeCasts Lanes) (h2 : Lanes.ShapeCasts Column) (h3 : Column.ShapeCasts Column)
    (hb : Column.Broadcasts Tile) :
    UpTo row x 0
      (broadcastTo Tile (shapeCast Column (shapeCast Column (shapeCast Lanes (extractStridedSlice Column ![0, 0] row hsl) h1) h2) h3) hb) := by
  intro r c
  rw [column_apply row 0 (by omega) hsl h1 h2 h3 hb r c]
  exact select_seed (entry row r) (x (ix2 r c))

/-- ONE STEP on the tile: overwrite with column `n + 1` where the window index is `n + 1`. -/
theorem upTo_next (row : Curves.Idx → α) (x : IVec Tile 32) (n : ℕ) (hn : n + 1 ≤ 100) (acc : Tile.Idx → α)
    (hsl : Curves.Slices ![0, n + 1] Column) (h1 : Column.ShapeCasts Lanes) (h2 : Lanes.ShapeCasts Column)
    (h3 : Column.ShapeCasts Column) (hb : Column.Broadcasts Tile) (h : UpTo row x n acc) :
    UpTo row x (n + 1)
      (select (cmpi .eq x (broadcast Tile (BitVec.ofNat 32 (n + 1))))
        (broadcastTo Tile (shapeCast Column (shapeCast Column (shapeCast Lanes (extractStridedSlice Column ![0, n + 1] row hsl) h1) h2) h3) hb)
        acc) := by
  intro r c
  show Scalar.select (IntOp.cmpi .eq (x (ix2 r c)) (BitVec.ofNat 32 (n + 1)))
      (broadcastTo Tile (shapeCast Column (shapeCast Column (shapeCast Lanes (extractStridedSlice Column ![0, n + 1] row hsl) h1) h2) h3) hb (ix2 r c))
      (acc (ix2 r c)) = _
  rw [column_apply row (n + 1) hn hsl h1 h2 h3 hb r c]
  exact select_step (entry row r) (x (ix2 r c)) n hn _ (h r c)

/-- After the hundredth step a position whose window index is at most 100 holds its row's entry in that column. -/
theorem upTo_all (row : Curves.Idx → α) (x : IVec Tile 32) (acc : Tile.Idx → α) (h : UpTo row x 100 acc)
    (r : Fin 32) (c : Fin 512) (hx : (x (ix2 r c)).toNat ≤ 100) :
    acc (ix2 r c) = entry row r (x (ix2 r c)).toNat := by
  rw [h r c, if_pos hx]

end Cert.TimeWindow
-- ==== Proof.SoftRows.lean ====
/-
  The kernel's softmax over a tile, read at one position.

  From a tile `L : [32, 512]` of scores the kernel takes each row's maximum (a lane reduction from −∞), views the 32
  maxima as a [32, 1] column and broadcasts them back along the 512 contexts, subtracts, exponentiates, sums each row
  the same way, and divides.  Read at `(r, c)` on the extended reals this is `softmaxRow` of row `r` at `c`
  (Spec.lean): the lane maximum is the fold of `max` over the row's 512 entries from −∞, the lane sum their sum, and
  a column broadcast along the contexts reads its row's entry.  The scores enter through a function `f` with
  `L (r, c) = f r c`, so that the caller chooses how a row is spelt.  Beside it, the additive mask term: the context
  mask converted to a number, times a constant, as a [1, 512] row broadcast down the 32 targets.
-/
import Idealize.ShloMosaic.PureOps.Ideal
import Idealize.ShloMosaic.PureOps.Ideal.Laws
import Idealize.ShloMosaic.Lib.ValueIdx
import Idealize.ShloMosaic.Lib.Pipeline.Value
import proofs.«400888_j33715493274067_2_alg».proof.Proof.Spec
import proofs.«400888_j33715493274067_2_alg».proof.Proof.Overwrite

noncomputable section

open scoped BigOperators

namespace Cert.TimeAttention

open Idealize.ShloMosaic Idealize.ShloMosaic.ValueIdx Cert.TimeWindow

/-- The index over lane `r` with context `k` put back on the reduced axis is `(r, k)`. -/
theorem lift_eq (hred : Tile.Reduces [1] Lanes) (r : Fin 32) (k : Fin 512) : hred.lift (ix1 r) k = ix2 r k := by
  funext a
  apply Fin.ext
  match a with
  | ⟨0, _⟩ => rfl
  | ⟨1, _⟩ => rfl

/-- A [32] vector viewed as a [32, 1] column and broadcast along the contexts reads, at `(r, c)`, its entry `r`. -/
theorem lanes_bcast_apply {α : Type} (v : Lanes.Idx → α) (hsc : Lanes.ShapeCasts Column) (hb : Column.Broadcasts Tile)
    (r : Fin 32) (c : Fin 512) : broadcastTo Tile (shapeCast Column v hsc) hb (ix2 r c) = v (ix1 r) := by
  refine (broadcastTo_apply _ hb (ix2 r c) (ix2 r (0 : Fin 1)) ?_).trans ?_
  · intro a
    match a with
    | ⟨0, _⟩ => rfl
    | ⟨1, _⟩ => rfl
  · refine shapeCast_apply v hsc (ix2 r (0 : Fin 1)) (ix1 r) ?_
    rw [Shape.rowMajor_val_one, Shape.rowMajor_val_two]
    show r.val = r.val * 1 + 0
    omega

/-- The row maxima, the shifted exponentials, the row sums and the quotient, at `(r, c)`: the softmax of row `r`. -/
theorem softRows_apply (L : FVec Ideal Tile .f32) (f : Fin 32 → Fin 512 → EReal) (hL : ∀ r c, L (ix2 r c) = f r c)
    (hred : Tile.Reduces [1] Lanes) (hφ₁ hφ₂ : FKind.Formats .f32)
    (hmax : (0xFF800000#32 : BitVec 32) = FKind.maximumf.neutral .f32 hφ₁)
    (hadd : (0x00000000#32 : BitVec 32) = FKind.add.neutral .f32 hφ₂)
    (hsc : Lanes.ShapeCasts Column) (hb : Column.Broadcasts Tile) (r : Fin 32) (c : Fin 512) :
    divf (exp (subf L (broadcastTo Tile (shapeCast Column (multiReduction .maximumf [1] Lanes L 0xFF800000#32 hred hφ₁ hmax) hsc) hb)))
      (broadcastTo Tile (shapeCast Column (multiReduction .add [1] Lanes
        (exp (subf L (broadcastTo Tile (shapeCast Column (multiReduction .maximumf [1] Lanes L 0xFF800000#32 hred hφ₁ hmax) hsc) hb)))
        0x00000000#32 hred hφ₂ hadd) hsc) hb) (ix2 r c)
      = softmaxRow (f r) c := by
  have hM : multiReduction .maximumf [1] Lanes L 0xFF800000#32 hred hφ₁ hmax (ix1 r) = rowMax (f r) := by
    rw [Ideal.multiReduction_maximumf_single]
    show (Finset.univ : Finset (Fin 512)).fold max (Ideal.ofBits .f32 0xFF800000#32) (fun k => L (hred.lift (ix1 r) k))
      = (Finset.univ : Finset (Fin 512)).fold max (Ideal.ofBits .f32 0xFF800000#32) (f r)
    refine congrArg (fun g => (Finset.univ : Finset (Fin 512)).fold max (Ideal.ofBits .f32 0xFF800000#32) g)
      (funext fun (k : Fin 512) => ?_)
    exact (congrArg L (lift_eq hred r k)).trans (hL r k)
  have hE : ∀ k : Fin 512,
      exp (subf L (broadcastTo Tile (shapeCast Column (multiReduction .maximumf [1] Lanes L 0xFF800000#32 hred hφ₁ hmax) hsc) hb)) (ix2 r k)
        = Ideal.exp (f r k - rowMax (f r)) := by
    intro k
    show Ideal.exp (L (ix2 r k)
      - broadcastTo Tile (shapeCast Column (multiReduction .maximumf [1] Lanes L 0xFF800000#32 hred hφ₁ hmax) hsc) hb (ix2 r k)) = _
    rw [lanes_bcast_apply _ hsc hb r k, hM, hL]
  show Ideal.div
      (exp (subf L (broadcastTo Tile (shapeCast Column (multiReduction .maximumf [1] Lanes L 0xFF800000#32 hred hφ₁ hmax) hsc) hb)) (ix2 r c))
      (broadcastTo Tile (shapeCast Column (multiReduction .add [1] Lanes
        (exp (subf L (broadcastTo Tile (shapeCast Column (multiReduction .maximumf [1] Lanes L 0xFF800000#32 hred hφ₁ hmax) hsc) hb)))
        0x00000000#32 hred hφ₂ hadd) hsc) hb (ix2 r c)) = _
  rw [hE c, lanes_bcast_apply _ hsc hb r c, Ideal.multiReduction_add_single]
  unfold softmaxRow
  refine congrArg (Ideal.div (Ideal.exp (f r c - rowMax (f r)))) ?_
  show ∑ k : Fin 512,
      exp (subf L (broadcastTo Tile (shapeCast Column (multiReduction .maximumf [1] Lanes L 0xFF800000#32 hred hφ₁ hmax) hsc) hb))
        (hred.lift (ix1 r) k) = _
  refine Finset.sum_congr rfl fun (k : Fin 512) _ => ?_
  exact (congrArg
    (exp (subf L (broadcastTo Tile (shapeCast Column (multiReduction .maximumf [1] Lanes L 0xFF800000#32 hred hφ₁ hmax) hsc) hb)))
    (lift_eq hred r k)).trans (hE k)

/-- The mask term: a [512] vector of words converted to numbers, viewed as a [1, 512] row, times a constant, and
    broadcast down the targets, reads at `(r, c)` word `c`'s number times the constant. -/
theorem maskTerm_apply (v : IVec ⟨1, ![512]⟩ 32) (cst : EReal) (hsc : Shape.ShapeCasts ⟨1, ![512]⟩ ⟨2, ![1, 512]⟩)
    (hb : Shape.Broadcasts ⟨2, ![1, 512]⟩ Tile) (r : Fin 32) (c : Fin 512) :
    broadcastTo Tile (mulf (shapeCast ⟨2, ![1, 512]⟩ (sitofp (F := Ideal) .f32 v) hsc) (broadcast ⟨2, ![1, 512]⟩ cst)) hb (ix2 r c)
      = FloatOps.sitofp (F := Ideal) .f32 (v (ix1 c)) * cst := by
  refine (broadcastTo_apply _ hb (ix2 r c) (ix2 (0 : Fin 1) c) ?_).trans ?_
  · intro a
    match a with
    | ⟨0, _⟩ => rfl
    | ⟨1, _⟩ => rfl
  · show shapeCast ⟨2, ![1, 512]⟩ (sitofp (F := Ideal) .f32 v) hsc (ix2 (0 : Fin 1) c) * cst = _
    rw [shapeCast_apply (sitofp (F := Ideal) .f32 v) hsc (ix2 (0 : Fin 1) c) (ix1 c)
      (by rw [Shape.rowMajor_val_one, Shape.rowMajor_val_two]; show c.val = 0 * 512 + c.val; omega)]
    rfl

end Cert.TimeAttention

end
-- ==== Proof.Lookup.lean ====
/-
  The body's lookup, payload by payload.

  The kernel body is printed in stretches; the stretches that carry the select-overwrite lookup each take the running
  tile after the steps up to some column and return it after a few more.  With `row` the tile's 32 × 101 curves and
  `x` the tile of window indices (both computed once, at the top of the body), `UpTo row x n acc` (Overwrite.lean)
  says that `acc` is the running tile after the steps up to column `n`.  Each lemma below says which columns one
  stretch covers: the first seeds with column 0 and does columns 1 and 2, and the last one here ends at column 95
  (the remaining five steps sit in the stretch that also holds the softmax).  Every proof is the same: open the
  stretch and apply the one-step lemma once per compare-and-select, innermost hypothesis last.  Nothing depends on
  what a float is, so the lemmas hold for every float family.
-/
import proofs.«400888_j33715493274067_2_alg».proof.Proof.Gen.KernelIdeal.Skeleton
import proofs.«400888_j33715493274067_2_alg».proof.Proof.Overwrite

noncomputable section

namespace Cert.KernelIdeal.Lookup

open Cert.KernelIdeal Cert.KernelIdeal.Gen Idealize.ShloMosaic Idealize.ShloMosaic.ValueIdx Cert.TimeWindow

variable {F : FTy → Type} [FloatOps F]

/-- Peel the compare-and-select steps off a running tile, one `upTo_next` each, down to the hypothesis `h`. -/
macro "overwrite_steps " h:term : tactic =>
  `(tactic| repeat (first | exact $h | refine upTo_next _ _ _ (by decide) _ _ _ _ _ _ ?_))

/-- Columns 0 (the seed), 1 and 2. -/
theorem upTo_2 (v0 : Vec F S1x32x1 .i32) (v2 : Vec F S1x1x512 .i32) (v6 : Vec F S1x32x101 .f32) :
    UpTo (k0_pay3 v6) (k0_pay4 v0 v2) 2 (k0_pay5 v0 v2 v6) := by
  unfold k0_pay5
  dsimp only
  refine upTo_next _ _ _ (by decide) _ _ _ _ _ _ ?_
  refine upTo_next _ _ _ (by decide) _ _ _ _ _ _ ?_
  exact upTo_seed _ _ _ _ _ _ _

/-- Columns 3 to 8. -/
theorem upTo_8 (v7 : FVec F S32x101 .f32) (v18 : IVec S32x512 32) (acc : FVec F S32x512 .f32) (h : UpTo v7 v18 2 acc) :
    UpTo v7 v18 8 (k0_pay7 v7 v18 acc (extractStridedSlice S32x1 ![0, 3] v7 slices_S32x101_o0_3_S32x1)) := by
  unfold k0_pay7
  dsimp only
  overwrite_steps h

/-- Columns 9 to 15. -/
theorem upTo_15 (v7 : FVec F S32x101 .f32) (v18 : IVec S32x512 32) (acc : FVec F S32x512 .f32) (h : UpTo v7 v18 8 acc) :
    UpTo v7 v18 15 (k0_pay10 v7 v18 acc (k0_pay8 v18) (k0_pay9 v7)) := by
  unfold k0_pay10 k0_pay8 k0_pay9
  dsimp only
  overwrite_steps h

/-- Columns 16 to 22. -/
theorem upTo_22 (v7 : FVec F S32x101 .f32) (v18 : IVec S32x512 32) (acc : FVec F S32x512 .f32) (h : UpTo v7 v18 15 acc) :
    UpTo v7 v18 22 (k0_pay12 v7 v18 acc (k0_pay11 v7) 16#32) := by
  unfold k0_pay12 k0_pay11
  dsimp only
  overwrite_steps h

/-- Columns 23 to 28. -/
theorem upTo_28 (v7 : FVec F S32x101 .f32) (v18 : IVec S32x512 32) (acc : FVec F S32x512 .f32) (h : UpTo v7 v18 22 acc) :
    UpTo v7 v18 28 (k0_pay14 v7 v18 acc (k0_pay13 v7)) := by
  unfold k0_pay14 k0_pay13
  dsimp only
  overwrite_steps h

/-- Columns 29 to 35. -/
theorem upTo_35 (v7 : FVec F S32x101 .f32) (v18 : IVec S32x512 32) (acc : FVec F S32x512 .f32) (h : UpTo v7 v18 28 acc) :
    UpTo v7 v18 35 (k0_pay17 v7 v18 acc (k0_pay15 v18) (k0_pay16 v7)) := by
  unfold k0_pay17 k0_pay15 k0_pay16
  dsimp only
  overwrite_steps h

/-- Columns 36 to 42. -/
theorem upTo_42 (v7 : FVec F S32x101 .f32) (v18 : IVec S32x512 32) (acc : FVec F S32x512 .f32) (h : UpTo v7 v18 35 acc) :
    UpTo v7 v18 42 (k0_pay19 v7 v18 acc (k0_pay18 v7) 36#32) := by
  unfold k0_pay19 k0_pay18
  dsimp only
  overwrite_steps h

/-- Columns 43 to 48. -/
theorem upTo_48 (v7 : FVec F S32x101 .f32) (v18 : IVec S32x512 32) (acc : FVec F S32x512 .f32) (h : UpTo v7 v18 42 acc) :
    UpTo v7 v18 48 (k0_pay21 v7 v18 acc (k0_pay20 v7)) := by
  unfold k0_pay21 k0_pay20
  dsimp only
  overwrite_steps h

/-- Columns 49 to 55. -/
theorem upTo_55 (v7 : FVec F S32x101 .f32) (v18 : IVec S32x512 32) (acc : FVec F S32x512 .f32) (h : UpTo v7 v18 48 acc) :
    UpTo v7 v18 55 (k0_pay24 v7 v18 acc (k0_pay22 v18) (k0_pay23 v7)) := by
  unfold k0_pay24 k0_pay22 k0_pay23
  dsimp only
  overwrite_steps h

/-- Columns 56 to 62. -/
theorem upTo_62 (v7 : FVec F S32x101 .f32) (v18 : IVec S32x512 32) (acc : FVec F S32x512 .f32) (h : UpTo v7 v18 55 acc) :
    UpTo v7 v18 62 (k0_pay26 v7 v18 acc (k0_pay25 v7) 56#32) := by
  unfold k0_pay26 k0_pay25
  dsimp only
  overwrite_steps h

/-- Columns 63 to 68. -/
theorem upTo_68 (v7 : FVec F S32x101 .f32) (v18 : IVec S32x512 32) (acc : FVec F S32x512 .f32) (h : UpTo v7 v18 62 acc) :
    UpTo v7 v18 68 (k0_pay28 v7 v18 acc (k0_pay27 v7)) := by
  unfold k0_pay28 k0_pay27
  dsimp only
  overwrite_steps h

/-- Columns 69 to 75. -/
theorem upTo_75 (v7 : FVec F S32x101 .f32) (v18 : IVec S32x512 32) (acc : FVec F S32x512 .f32) (h : UpTo v7 v18 68 acc) :
    UpTo v7 v18 75 (k0_pay31 v7 v18 acc (k0_pay29 v18) (k0_pay30 v7)) := by
  unfold k0_pay31 k0_pay29 k0_pay30
  dsimp only
  overwrite_steps h

/-- Columns 76 to 82. -/
theorem upTo_82 (v7 : FVec F S32x101 .f32) (v18 : IVec S32x512 32) (acc : FVec F S32x512 .f32) (h : UpTo v7 v18 75 acc) :
    UpTo v7 v18 82 (k0_pay33 v7 v18 acc (k0_pay32 v7) 76#32) := by
  unfold k0_pay33 k0_pay32
  dsimp only
  overwrite_steps h

/-- Columns 83 to 88. -/
theorem upTo_88 (v7 : FVec F S32x101 .f32) (v18 : IVec S32x512 32) (acc : FVec F S32x512 .f32) (h : UpTo v7 v18 82 acc) :
    UpTo v7 v18 88 (k0_pay35 v7 v18 acc (k0_pay34 v7)) := by
  unfold k0_pay35 k0_pay34
  dsimp only
  overwrite_steps h

/-- Columns 89 to 95. -/
theorem upTo_95 (v7 : FVec F S32x101 .f32) (v18 : IVec S32x512 32) (acc : FVec F S32x512 .f32) (h : UpTo v7 v18 88 acc) :
    UpTo v7 v18 95 (k0_pay38 v7 v18 acc (k0_pay36 v18) (k0_pay37 v7)) := by
  unfold k0_pay38 k0_pay36 k0_pay37
  dsimp only
  overwrite_steps h

end Cert.KernelIdeal.Lookup

end
-- ==== Proof.Body.lean ====
/-
  What one grid point's body leaves in its output block, position by position.

  The body loads a [1, 32, 101] block of curves, a [1, 32, 1] block of target time stamps and two [1, 1, 512] blocks
  (context time stamps, context mask), and stores a [1, 32, 512] block.  Dropping the unit axes, the window-index tile
  at `(r, k)` is `widx` of context stamp `k` and target stamp `r` (`windowTile_apply`); the lookup's hundred steps
  leave curve entry `(r, widx)` there (Lookup.lean up to column 95, the last five steps here); the mask term is added,
  and the rows go through the softmax (SoftRows.lean).  So the stored block at `(0, r, c)` is the softmax, at `c`, of
  the row `k ↦ curves (0, r, wcol …) + mask (0, 0, k) · (−10⁹)`.
-/
import proofs.«400888_j33715493274067_2_alg».proof.Proof.Gen.KernelIdeal.Frame
import proofs.«400888_j33715493274067_2_alg».proof.Proof.SoftRows
import proofs.«400888_j33715493274067_2_alg».proof.Proof.Lookup

noncomputable section

open scoped BigOperators

namespace Cert.KernelIdeal.Body

open Cert.KernelIdeal Cert.KernelIdeal.Gen Cert.KernelIdeal.Lookup Idealize.ShloMosaic Idealize.ShloMosaic.ValueIdx
  Cert.TimeWindow Cert.TimeAttention

/-! ## The loads, with their unit axes dropped -/

section AnyFloat
variable {F : FTy → Type} [FloatOps F]

/-- The curves block viewed [32, 101]. -/
theorem curves_apply (v6 : Vec F S1x32x101 .f32) (r : Fin 32) (w : Fin 101) :
    k0_pay3 v6 (ix2 r w) = v6 (ix3 (0 : Fin 1) r w) := by
  unfold k0_pay3
  refine shapeCast_apply v6 _ (ix2 r w) (ix3 (0 : Fin 1) r w) ?_
  rw [Shape.rowMajor_val_three, Shape.rowMajor_val_two]
  show (0 * 32 + r.val) * 101 + w.val = r.val * 101 + w.val
  omega

/-- The mask block viewed [512]. -/
theorem mask_apply (v4 : Vec F S1x1x512 .i32) (k : Fin 512) :
    k0_pay2 v4 (ix1 k) = v4 (ix3 (0 : Fin 1) (0 : Fin 1) k) := by
  unfold k0_pay2
  refine shapeCast_apply v4 _ (ix1 k) (ix3 (0 : Fin 1) (0 : Fin 1) k) ?_
  rw [Shape.rowMajor_val_three, Shape.rowMajor_val_one]
  show (0 * 1 + 0) * 512 + k.val = k.val
  omega

/-- The window-index tile at `(r, k)`: context stamp `k` against target stamp `r`. -/
theorem windowTile_apply (v0 : Vec F S1x32x1 .i32) (v2 : Vec F S1x1x512 .i32) (r : Fin 32) (k : Fin 512) :
    k0_pay4 v0 v2 (ix2 r k) = widx (v2 (ix3 (0 : Fin 1) (0 : Fin 1) k)) (v0 (ix3 (0 : Fin 1) r (0 : Fin 1))) := by
  unfold k0_pay4
  have hc : broadcastTo S32x512 (shapeCast S1x512 (shapeCast S512 v2 shapeCasts_S1x1x512_S512) shapeCasts_S512_S1x512)
      broadcasts_S1x512_S32x512 (ix2 r k) = v2 (ix3 (0 : Fin 1) (0 : Fin 1) k) := by
    refine (broadcastTo_apply _ broadcasts_S1x512_S32x512 (ix2 r k) (ix2 (0 : Fin 1) k) ?_).trans ?_
    · intro a
      match a with
      | ⟨0, _⟩ => rfl
      | ⟨1, _⟩ => rfl
    refine (shapeCast_apply _ shapeCasts_S512_S1x512 (ix2 (0 : Fin 1) k) (ix1 k) ?_).trans ?_
    · rw [Shape.rowMajor_val_one, Shape.rowMajor_val_two]
      show k.val = 0 * 512 + k.val
      omega
    refine shapeCast_apply v2 shapeCasts_S1x1x512_S512 (ix1 k) (ix3 (0 : Fin 1) (0 : Fin 1) k) ?_
    rw [Shape.rowMajor_val_three, Shape.rowMajor_val_one]
    show (0 * 1 + 0) * 512 + k.val = k.val
    omega
  have ht : broadcastTo S32x512 (shapeCast S32x1 (shapeCast S32 v0 shapeCasts_S1x32x1_S32) shapeCasts_S32_S32x1)
      broadcasts_S32x1_S32x512 (ix2 r k) = v0 (ix3 (0 : Fin 1) r (0 : Fin 1)) := by
    refine (lanes_bcast_apply _ shapeCasts_S32_S32x1 broadcasts_S32x1_S32x512 r k).trans ?_
    refine shapeCast_apply v0 shapeCasts_S1x32x1_S32 (ix1 r) (ix3 (0 : Fin 1) r (0 : Fin 1)) ?_
    rw [Shape.rowMajor_val_three, Shape.rowMajor_val_one]
    show (0 * 32 + r.val) * 1 + 0 = r.val
    omega
  show IntOp.addi (IntOp.minsi 50#32 (IntOp.maxsi 4294967246#32 (IntOp.subi
      (broadcastTo S32x512 (shapeCast S1x512 (shapeCast S512 v2 shapeCasts_S1x1x512_S512) shapeCasts_S512_S1x512)
        broadcasts_S1x512_S32x512 (ix2 r k))
      (broadcastTo S32x512 (shapeCast S32x1 (shapeCast S32 v0 shapeCasts_S1x32x1_S32) shapeCasts_S32_S32x1)
        broadcasts_S32x1_S32x512 (ix2 r k))))) 50#32 = _
  rw [hc, ht]
  rfl

/-- Every window index of the tile is a column of the curves. -/
theorem windowTile_le (v0 : Vec F S1x32x1 .i32) (v2 : Vec F S1x1x512 .i32) (r : Fin 32) (k : Fin 512) :
    (k0_pay4 v0 v2 (ix2 r k)).toNat ≤ 100 := by
  rw [windowTile_apply]
  exact widx_toNat_le _ _

/-- The stored [1, 32, 512] block at `(0, r, c)` is the computed tile at `(r, c)`. -/
theorem stored_apply (v : FVec F S32x512 .f32) (r : Fin 32) (c : Fin 512) :
    k0_pay1 v (ix3 (0 : Fin 1) r c) = v (ix2 r c) := by
  unfold k0_pay1
  refine shapeCast_apply v _ (ix3 (0 : Fin 1) r c) (ix2 r c) ?_
  rw [Shape.rowMajor_val_three, Shape.rowMajor_val_two]
  show r.val * 512 + c.val = (0 * 32 + r.val) * 512 + c.val
  omega

end AnyFloat

/-! ## The last five steps, the mask term and the softmax -/

/-- From the running tile after column 95: the stretch's result at `(r, c)` is the softmax of the row whose entry `k`
    is the curve entry the window index names plus the mask term. -/
theorem tail_apply (v5 : IVec S512 32) (v7 : FVec Ideal S32x101 .f32) (v18 : IVec S32x512 32)
    (acc : FVec Ideal S32x512 .f32) (h : UpTo v7 v18 95 acc) (hx : ∀ r k, (v18 (ix2 r k)).toNat ≤ 100)
    (r : Fin 32) (c : Fin 512) :
    k0_pay40 v5 v7 v18 acc (k0_pay39 v7) 96#32 (ix2 r c)
      = softmaxRow (fun k => entry v7 r (v18 (ix2 r k)).toNat
          + FloatOps.sitofp (F := Ideal) .f32 (v5 (ix1 k)) * Ideal.ofBits .f32 0xCE6E6B28#32) c := by
  unfold k0_pay40 k0_pay39
  refine softRows_apply _ (fun r k => entry v7 r (v18 (ix2 r k)).toNat
      + FloatOps.sitofp (F := Ideal) .f32 (v5 (ix1 k)) * Ideal.ofBits .f32 0xCE6E6B28#32) ?_ _ _ _ _ _ _ _ r c
  intro r' c'
  refine congrArg₂ (fun a b : EReal => a + b) (upTo_all v7 v18 _ ?_ r' c' (hx r' c')) (maskTerm_apply _ _ _ _ r' c')
  overwrite_steps h

/-! ## The block -/

theorem hz3 : (![0, 0, 0] : Fin 3 → Nat) = fun _ => 0 := funext fun a => by fin_cases a <;> rfl

/-- WHAT THE BODY STORES at `(0, r, c)`, from the four loaded blocks. -/
theorem block_apply (x0 : Vec Ideal S1x32x101 .f32) (x1 : Vec Ideal S1x32x1 .i32) (x2 x3 : Vec Ideal S1x1x512 .i32)
    (r : Fin 32) (c : Fin 512) :
    out0_4 x0 x1 x2 x3 (ix3 (0 : Fin 1) r c)
      = softmaxRow (fun k => x0 (ix3 (0 : Fin 1) r (wcol (x2 (ix3 (0 : Fin 1) (0 : Fin 1) k)) (x1 (ix3 (0 : Fin 1) r (0 : Fin 1)))))
          + FloatOps.sitofp (F := Ideal) .f32 (x3 (ix3 (0 : Fin 1) (0 : Fin 1) k)) * Ideal.ofBits .f32 0xCE6E6B28#32) c := by
  unfold out0_4
  rw [View.canon_unit_zero hz3]
  simp only [View.ld_unit_zero (S := S1x32x101) hz3, View.ld_unit_zero (S := S1x32x1) hz3, View.ld_unit_zero (S := S1x1x512) hz3]
  refine (stored_apply _ r c).trans ?_
  refine (tail_apply _ _ _ _
    (upTo_95 _ _ _ (upTo_88 _ _ _ (upTo_82 _ _ _ (upTo_75 _ _ _ (upTo_68 _ _ _ (upTo_62 _ _ _ (upTo_55 _ _ _
      (upTo_48 _ _ _ (upTo_42 _ _ _ (upTo_35 _ _ _ (upTo_28 _ _ _ (upTo_22 _ _ _ (upTo_15 _ _ _ (upTo_8 _ _ _
        (upTo_2 x1 x2 x0)))))))))))))))
    (fun r' k' => windowTile_le x1 x2 r' k') r c).trans ?_
  refine congrArg (fun g => softmaxRow g c) (funext fun (k : Fin 512) => ?_)
  refine congrArg₂ (fun a b : EReal => a + b) ?_ ?_
  · have hw : k0_pay4 x1 x2 (ix2 r k) = widx (x2 (ix3 (0 : Fin 1) (0 : Fin 1) k)) (x1 (ix3 (0 : Fin 1) r (0 : Fin 1))) :=
      windowTile_apply x1 x2 r k
    have hle := widx_toNat_le (x2 (ix3 (0 : Fin 1) (0 : Fin 1) k)) (x1 (ix3 (0 : Fin 1) r (0 : Fin 1)))
    unfold entry
    rw [hw]
    refine (curves_apply x0 r _).trans ?_
    exact congrArg (fun w => x0 (ix3 (0 : Fin 1) r w)) (Fin.ext (Nat.min_eq_left hle))
  · exact congrArg (fun w : BitVec 32 => FloatOps.sitofp (F := Ideal) .f32 w * Ideal.ofBits .f32 0xCE6E6B28#32)
      (mask_apply x3 k)

end Cert.KernelIdeal.Body

end
-- ==== Proof.Whole.lean ====
/-
  From blocks to the whole result array.

  The pallas_call runs the body at the 32 × 16 grid points; point `t` is batch `t / 16` and target tile `t % 16`.  Its
  windows are: the curves `A : [32, 512, 101]` in blocks [1, 32, 101] at `(t / 16, t % 16, 0)`; the target time stamps
  `T : [32, 512, 1]` in blocks [1, 32, 1] at the same place; the context time stamps and the mask
  `C, M : [32, 1, 512]` in blocks [1, 1, 512] at `(t / 16, 0, 0)`; and the result `[32, 512, 512]` in blocks
  [1, 32, 512] at `(t / 16, t % 16, 0)` (`idx_facts`, decided over the 512 points).  `Gw A T C M` is the operator's
  result written over these four arrays as the windows see them.  Point `t` writes back block `t` of `Gw`
  (`flushed_eq`: the body's block, Body.lean, with every block coordinate moved to its array coordinate), the
  result's blocks tile the array (`cover`: index `i` lies in the block of point `16 · i₀ + i₁ / 32`), so after the
  run the result array IS `Gw` of the four arrays (`final`).  The arrays themselves are what the host operations
  before the call leave: the curves are the gathered embedding rows plus the bias, and `T`, `C`, `M` are reshapes of
  three arguments; read back through the reshapes, `Gw` is Spec.lean's `G` (`Gw_eq_G`).
-/
import proofs.«400888_j33715493274067_2_alg».proof.Proof.Gen.KernelIdeal.Value
import proofs.«400888_j33715493274067_2_alg».proof.Proof.Body

noncomputable section

open scoped BigOperators

namespace Cert.KernelIdeal.Whole

open Cert.KernelIdeal Cert.KernelIdeal.Gen Idealize.ShloMosaic Idealize.ShloMosaic.TcCoe Idealize.SL.Sem
  Idealize.ShloMosaic.ValueIdx Cert.TimeWindow Cert.TimeAttention
open Idealize.ShloMosaic.Pipeline (Dat)

/-- The operator's result over the arrays as the kernel's windows see them. -/
def Gw (A : FVec Ideal S32x512x101 .f32) (T : IVec S32x512x1 32) (C M : IVec S32x1x512 32) :
    FVec Ideal S32x512x512 .f32 :=
  fun i => softmaxRow (fun k => A (ix3 (i 0) (i 1) (wcol (C (ix3 (i 0) (0 : Fin 1) k)) (T (ix3 (i 0) (i 1) (0 : Fin 1)))))
    + FloatOps.sitofp (F := Ideal) .f32 (M (ix3 (i 0) (0 : Fin 1) k)) * Ideal.ofBits .f32 0xCE6E6B28#32) (i 2)

/-- Read back through the reshapes of the time stamps and the mask, it is the specification. -/
theorem Gw_eq_G (A : FVec Ideal S32x512x101 .f32) (tts cts mask : IVec S32x512 32) :
    Gw A (fun i => shapeCast S32x512x1 tts shapeCasts_S32x512_S32x512x1 i)
        (fun i => shapeCast S32x1x512 cts shapeCasts_S32x512_S32x1x512 i)
        (fun i => shapeCast S32x1x512 mask shapeCasts_S32x512_S32x1x512 i)
      = G A tts cts mask := by
  have hT : ∀ (b : Fin 32) (t : Fin 512),
      shapeCast S32x512x1 tts shapeCasts_S32x512_S32x512x1 (ix3 b t (0 : Fin 1)) = tts (ix2 b t) := by
    intro b t
    refine shapeCast_apply tts _ (ix3 b t (0 : Fin 1)) (ix2 b t) ?_
    rw [Shape.rowMajor_val_three, Shape.rowMajor_val_two]
    show b.val * 512 + t.val = (b.val * 512 + t.val) * 1 + 0
    omega
  have hC : ∀ (x : IVec S32x512 32) (b : Fin 32) (k : Fin 512),
      shapeCast S32x1x512 x shapeCasts_S32x512_S32x1x512 (ix3 b (0 : Fin 1) k) = x (ix2 b k) := by
    intro x b k
    refine shapeCast_apply x _ (ix3 b (0 : Fin 1) k) (ix2 b k) ?_
    rw [Shape.rowMajor_val_three, Shape.rowMajor_val_two]
    show b.val * 512 + k.val = (b.val * 1 + 0) * 512 + k.val
    omega
  funext i
  obtain ⟨b, t, c, rfl⟩ : ∃ (b : Fin 32) (t c : Fin 512), i = ix3 b t c := ⟨i 0, i 1, i 2, eq_ix3 i⟩
  show softmaxRow (fun k => A (ix3 b t (wcol (shapeCast S32x1x512 cts shapeCasts_S32x512_S32x1x512 (ix3 b (0 : Fin 1) k))
          (shapeCast S32x512x1 tts shapeCasts_S32x512_S32x512x1 (ix3 b t (0 : Fin 1)))))
        + FloatOps.sitofp (F := Ideal) .f32 (shapeCast S32x1x512 mask shapeCasts_S32x512_S32x1x512 (ix3 b (0 : Fin 1) k))
          * Ideal.ofBits .f32 0xCE6E6B28#32) c
      = softmaxRow (fun k => A (ix3 b t (wcol (cts (ix2 b k)) (tts (ix2 b t))))
        + FloatOps.sitofp (F := Ideal) .f32 (mask (ix2 b k)) * Ideal.ofBits .f32 0xCE6E6B28#32) c
  refine congrArg (fun g => softmaxRow g c) (funext fun (k : Fin 512) => ?_)
  rw [hT, hC cts, hC mask]

variable (m : (ℓ : Loc nD τ sig) → Buf (Elt Ideal) ℓ) (ρ : Dev nD → PrngReg)

/-! ## The arrays the windows see, and each point's blocks, at their literal types -/

abbrev arrA (c : Dev nD) : FVec Ideal S32x512x101 .f32 := V m c main_v9
abbrev arrT (c : Dev nD) : IVec S32x512x1 32 := V m c main_v10
abbrev arrC (c : Dev nD) : IVec S32x1x512 32 := V m c main_v11
abbrev arrM (c : Dev nD) : IVec S32x1x512 32 := V m c main_v12

abbrev blkA (c : Dev nD) (t : Fin cfg0.N) : Vec Ideal S1x32x101 .f32 := iblk m c 0 t
abbrev blkT (c : Dev nD) (t : Fin cfg0.N) : Vec Ideal S1x32x1 .i32 := iblk m c 1 t
abbrev blkC (c : Dev nD) (t : Fin cfg0.N) : Vec Ideal S1x1x512 .i32 := iblk m c 2 t
abbrev blkM (c : Dev nD) (t : Fin cfg0.N) : Vec Ideal S1x1x512 .i32 := iblk m c 3 t

/-- Where each window's block sits at point `t`: batch `t / 16`, target tile `t % 16`. -/
theorem idx_facts : ∀ t : Fin cfg0.N,
    win0_4.index t (0 : Fin 3) = t.val / 16 ∧ win0_4.index t (1 : Fin 3) = t.val % 16 ∧ win0_4.index t (2 : Fin 3) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- WHAT POINT `t` WRITES BACK is block `t` of `Gw` of the four arrays. -/
theorem flushed_eq (c : Dev nD) (t : Fin cfg0.N) :
    (dats m 0 c).flushed 4 t
      = ((cfg0.win 4).blk t).view.read (Elt Ideal) (Gw (arrA m c) (arrT m c) (arrC m c) (arrM m c)) := by
  rw [Value.flushed4]
  obtain ⟨e40, e41, e42, e00, e01, e02, e10, e11, e12, e20, e21, e22, e30, e31, e32⟩ := idx_facts t
  funext j
  obtain ⟨z, r, q, rfl⟩ : ∃ (z : Fin 1) (r : Fin 32) (q : Fin 512), j = ix3 z r q := ⟨j 0, j 1, j 2, eq_ix3 j⟩
  have hz : z.val = 0 := by have := z.isLt; omega
  -- the array index under block position (z, r, q) of the result's block at point t
  have hb : ∃ (b : Fin 32) (u : Fin 512), ((cfg0.win 4).blk t).view.emb (ix3 z r q) = ix3 b u q
      ∧ b.val = t.val / 16 ∧ u.val = t.val % 16 * 32 + r.val := by
    have ht : t.val < 512 := t.isLt
    refine ⟨⟨t.val / 16, by omega⟩, ⟨t.val % 16 * 32 + r.val, by have := r.isLt; omega⟩, ?_, rfl, rfl⟩
    funext a
    apply Fin.ext
    match a with
    | ⟨0, _⟩ => show win0_4.index t (0 : Fin 3) * 1 + 1 * z.val = t.val / 16; omega
    | ⟨1, _⟩ => show win0_4.index t (1 : Fin 3) * 32 + 1 * r.val = t.val % 16 * 32 + r.val; omega
    | ⟨2, _⟩ => show win0_4.index t (2 : Fin 3) * 512 + 1 * q.val = q.val; omega
  obtain ⟨b, u, hemb, hbv, huv⟩ := hb
  show out0_4 (blkA m c t) (blkT m c t) (blkC m c t) (blkM m c t) (ix3 z r q)
    = Gw (arrA m c) (arrT m c) (arrC m c) (arrM m c) (((cfg0.win 4).blk t).view.emb (ix3 z r q))
  rw [hemb]
  have hzz : z = (0 : Fin 1) := Fin.ext hz
  subst hzz
  refine (Body.block_apply (blkA m c t) (blkT m c t) (blkC m c t) (blkM m c t) r q).trans ?_
  have hA : ∀ w : Fin 101, blkA m c t (ix3 (0 : Fin 1) r w) = arrA m c (ix3 b u w) := by
    intro w
    show arrA m c (((cfg0.win 0).blk t).view.emb (ix3 (0 : Fin 1) r w)) = _
    refine congrArg (arrA m c) (funext fun a => Fin.ext ?_)
    match a with
    | ⟨0, _⟩ => show win0_0.index t (0 : Fin 3) * 1 + 1 * 0 = b.val; omega
    | ⟨1, _⟩ => show win0_0.index t (1 : Fin 3) * 32 + 1 * r.val = u.val; omega
    | ⟨2, _⟩ => show win0_0.index t (2 : Fin 3) * 101 + 1 * w.val = w.val; omega
  have hT : blkT m c t (ix3 (0 : Fin 1) r (0 : Fin 1)) = arrT m c (ix3 b u (0 : Fin 1)) := by
    show arrT m c (((cfg0.win 1).blk t).view.emb (ix3 (0 : Fin 1) r (0 : Fin 1))) = _
    refine congrArg (arrT m c) (funext fun a => Fin.ext ?_)
    match a with
    | ⟨0, _⟩ => show win0_1.index t (0 : Fin 3) * 1 + 1 * 0 = b.val; omega
    | ⟨1, _⟩ => show win0_1.index t (1 : Fin 3) * 32 + 1 * r.val = u.val; omega
    | ⟨2, _⟩ => show win0_1.index t (2 : Fin 3) * 1 + 1 * 0 = 0; omega
  have hC : ∀ k : Fin 512, blkC m c t (ix3 (0 : Fin 1) (0 : Fin 1) k) = arrC m c (ix3 b (0 : Fin 1) k) := by
    intro k
    show arrC m c (((cfg0.win 2).blk t).view.emb (ix3 (0 : Fin 1) (0 : Fin 1) k)) = _
    refine congrArg (arrC m c) (funext fun a => Fin.ext ?_)
    match a with
    | ⟨0, _⟩ => show win0_2.index t (0 : Fin 3) * 1 + 1 * 0 = b.val; omega
    | ⟨1, _⟩ => show win0_2.index t (1 : Fin 3) * 1 + 1 * 0 = 0; omega
    | ⟨2, _⟩ => show win0_2.index t (2 : Fin 3) * 512 + 1 * k.val = k.val; omega
  have hM : ∀ k : Fin 512, blkM m c t (ix3 (0 : Fin 1) (0 : Fin 1) k) = arrM m c (ix3 b (0 : Fin 1) k) := by
    intro k
    show arrM m c (((cfg0.win 3).blk t).view.emb (ix3 (0 : Fin 1) (0 : Fin 1) k)) = _
    refine congrArg (arrM m c) (funext fun a => Fin.ext ?_)
    match a with
    | ⟨0, _⟩ => show win0_3.index t (0 : Fin 3) * 1 + 1 * 0 = b.val; omega
    | ⟨1, _⟩ => show win0_3.index t (1 : Fin 3) * 1 + 1 * 0 = 0; omega
    | ⟨2, _⟩ => show win0_3.index t (2 : Fin 3) * 512 + 1 * k.val = k.val; omega
  show _ = softmaxRow (fun k => arrA m c (ix3 b u (wcol (arrC m c (ix3 b (0 : Fin 1) k)) (arrT m c (ix3 b u (0 : Fin 1)))))
    + FloatOps.sitofp (F := Ideal) .f32 (arrM m c (ix3 b (0 : Fin 1) k)) * Ideal.ofBits .f32 0xCE6E6B28#32) q
  refine congrArg (fun g => softmaxRow g q) (funext fun (k : Fin 512) => ?_)
  rw [hA, hT, hC k, hM k]

/-- An index of the result array is in point `t`'s block iff each coordinate is in the block's range on its axis. -/
theorem mem_blk (t : Fin cfg0.N) (i : S32x512x512.Idx) :
    i ∈ ((cfg0.win 4).blk t).view.set ↔ ∀ a : Fin 3, win0_4.index t a * S1x32x512.size a ≤ (i a).val
      ∧ (i a).val < win0_4.index t a * S1x32x512.size a + S1x32x512.size a := by
  show i ∈ ((View.whole main_v13).slice (win0_4.rect t)).set ↔ _
  rw [View.set_slice_whole, Rect.mem_set_unit]
  exact Iff.rfl

/-- THE BLOCKS TILE THE RESULT: index `i` lies in the block of point `16 · i₀ + i₁ / 32`. -/
theorem cover (i : S32x512x512.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 512 := (i 2).isLt
  have hN : (i 0).val * 16 + (i 1).val / 32 < cfg0.N := by show _ < 512; omega
  obtain ⟨e40, e41, e42, -⟩ := idx_facts ⟨(i 0).val * 16 + (i 1).val / 32, hN⟩
  have ht : (⟨(i 0).val * 16 + (i 1).val / 32, hN⟩ : Fin cfg0.N).val = (i 0).val * 16 + (i 1).val / 32 := rfl
  refine ⟨⟨(i 0).val * 16 + (i 1).val / 32, hN⟩, flush0_4 _, ?_⟩
  rw [mem_blk]
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 32 ≤ (i 1).val ∧ (i 1).val < win0_4.index _ (1 : Fin 3) * 32 + 32
    omega
  | ⟨2, _⟩ =>
    show win0_4.index _ (2 : Fin 3) * 512 ≤ (i 2).val ∧ (i 2).val < win0_4.index _ (2 : Fin 3) * 512 + 512
    omega

/-- THE RESULT ARRAY after the run. -/
theorem final (c : Dev nD) :
    (dats m 0 c).arrAt 4 cfg0.N = Gw (arrA m c) (arrT m c) (arrC m c) (arrM m c) :=
  (dats m 0 c).arrAt_eq_of_cover 4 (Gw (arrA m c) (arrT m c) (arrC m c) (arrM m c)) (fun t _ => flushed_eq m c t) cover

/-! ## What the host operations before the call leave in the four arrays -/

/-- The per-target curves: the embedding's rows at the target concepts (a negative concept counted from the end, as
    the host's indexing does), plus the bias. -/
def curves {F : FTy → Type} [FloatOps F] (concepts : IVec S32x512 32) (emb : FVec F S20000x101 .f32) (bias : FVec F S101 .f32) :
    FVec F S32x512x101 .f32 :=
  addf (Host.gather gather_S20000x101_S32x512x1_S32x512x101_2_0_n_n_0_2_1101 emb
      (broadcastInDim S32x512x1 ![0, 1] bcast_S32x512_S32x512x1_0_1
        (select (cmpi .slt concepts (broadcastInDim S32x512 ![] bcast_S_S32x512 (constantI S_ 32 0#32)))
          (addi concepts (broadcastInDim S32x512 ![] bcast_S_S32x512 (constantI S_ 32 20000#32))) concepts)))
    (broadcastInDim S32x512x101 ![0, 1, 2] bcast_S1x1x101_S32x512x101_0_1_2 (broadcastInDim S1x1x101 ![2] bcast_S101_S1x1x101_2 bias))

theorem arrA_eq (c : Dev nD) : arrA m c = curves (m ((c : Thread nD τ).loc main_arg0)) (m ((c : Thread nD τ).loc main_arg4))
    (m ((c : Thread nD τ).loc main_arg5)) := by
  show (V m c main_v9 : S32x512x101.Idx → EReal) = _
  dsimp only [V, hostOps0]
  after_results
  rfl

theorem arrT_eq (c : Dev nD) : arrT m c
    = fun i => shapeCast S32x512x1 (m ((c : Thread nD τ).loc main_arg1)) shapeCasts_S32x512_S32x512x1 i := by
  show (V m c main_v10 : S32x512x1.Idx → BitVec 32) = _
  dsimp only [V, hostOps0]
  after_results
  rfl

theorem arrC_eq (c : Dev nD) : arrC m c
    = fun i => shapeCast S32x1x512 (m ((c : Thread nD τ).loc main_arg2)) shapeCasts_S32x512_S32x1x512 i := by
  show (V m c main_v11 : S32x1x512.Idx → BitVec 32) = _
  dsimp only [V, hostOps0]
  after_results
  rfl

theorem arrM_eq (c : Dev nD) : arrM m c
    = fun i => shapeCast S32x1x512 (m ((c : Thread nD τ).loc main_arg3)) shapeCasts_S32x512_S32x1x512 i := by
  show (V m c main_v12 : S32x1x512.Idx → BitVec 32) = _
  dsimp only [V, hostOps0]
  after_results
  rfl

/-! ## The kernel's run, read -/

/-- Every weakly fair execution of the kernel program terminates with the result array at the specification's function
    of the arguments (the curves from the concepts, the embedding and the bias), the arguments unchanged. -/
theorem run : θ_run defs (onTc (τ := τ) (main (F := Ideal))) ⟨m, fun _ => 0, ρ⟩ fun r => ∀ c : Dev nD,
      r.2.mem ((c : Thread nD τ).loc main_v13)
        = G (curves (m ((c : Thread nD τ).loc main_arg0)) (m ((c : Thread nD τ).loc main_arg4)) (m ((c : Thread nD τ).loc main_arg5)))
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (by
      rw [final m c, arrA_eq, arrT_eq, arrC_eq, arrM_eq]
      exact Gw_eq_G _ _ _ _), (h c).2⟩)
    (Value.run_blocks m ρ)

end Cert.KernelIdeal.Whole

end
-- ==== Proof.RefIsG.lean ====
/-
  The reference's result is the specification.

  The reference computes the window index of every (batch, target, context) triple from the broadcast time stamps
  (`window_apply`), looks the curve entry up by `take_along_axis` — an index counted from the end if negative, a range
  test against [0, 100] whose failure would give NaN, and a gather that clamps into [0, 100] — adds the mask term, and
  takes the softmax over the contexts.  Since the window index always lies in 0, …, 100 (Window.lean) the index is not
  negative (`takeIdx_apply`), the range test holds at every position (`valid_apply`; the NaN branch is never taken)
  and the clamp is the identity, so the looked-up value is the curve entry in the column the window index names
  (`logits_apply`: the specification's score).  The softmax is the specification's: the reduce-max from −∞ is the fold
  of `max` over the row, taking the maximum with −∞ once more changes nothing, and the reduce-add from zero is the
  row's sum.  The curves themselves are kept as the stage `val_main_v9` of the concepts, the embedding and the bias.
-/
import proofs.«400888_j33715493274067_2_alg».proof.Proof.RefStages
import proofs.«400888_j33715493274067_2_alg».proof.Proof.Spec
import Idealize.ShloMosaic.Lib.ValueIdx
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
  Cert.TimeWindow Cert.TimeAttention

/-! ## Words: the window index and its guards -/

section AnyFloat
variable {F : FTy → Type} [FloatOps F]

/-- The reference's window index at `(b, t, c)`. -/
theorem window_apply (x1 x2 : (⟨S32x512, .i32⟩ : BufTy).Contents (Elt F)) (b : Fin 32) (t c : Fin 512) :
    val_main_v17 (F := F) x1 x2 (ix3 b t c) = widx (x2 (ix2 b c)) (x1 (ix2 b t)) := by
  have e1 : idx_main_v10 (idx_main_v12 (ix3 b t c)) = ix2 b c := by
    funext a; apply Fin.ext
    match a with
    | ⟨0, _⟩ => rfl
    | ⟨1, _⟩ => rfl
  have e2 : idx_main_v11 (idx_main_v13 (ix3 b t c)) = ix2 b t := by
    funext a; apply Fin.ext
    match a with
    | ⟨0, _⟩ => rfl
    | ⟨1, _⟩ => rfl
  rw [val_main_v17_apply, val_main_v15_apply, val_main_v16_apply, val_main_c_3_apply, val_main_call0_v4_apply,
    val_main_call0_v3_apply, val_main_c_2_apply, val_main_call0_v2_apply, val_main_call0_v1_apply, val_main_call0_v0_apply,
    val_main_c_1_apply, val_main_v14_apply, val_main_v12_apply, val_main_v10_apply, val_main_v13_apply, val_main_v11_apply, e1, e2]
  rfl

/-- The index `take_along_axis` gathers with (after its "count from the end if negative" step), at `(b, t, c, 0)`: the
    window index itself, which is never negative. -/
theorem takeIdx_apply (x1 x2 : (⟨S32x512, .i32⟩ : BufTy).Contents (Elt F)) (b : Fin 32) (t c : Fin 512) (z : Fin 1) :
    val_main_call1_v5 (F := F) x1 x2 (ix4 b t c z) = widx (x2 (ix2 b c)) (x1 (ix2 b t)) := by
  have e : idx_main_call1_v5 (ix4 b t c z) = ix3 b t c := by
    funext a; apply Fin.ext
    have hb := b.isLt
    have ht := t.isLt
    have hc := c.isLt
    have hz := z.isLt
    match a with
    | ⟨0, _⟩ => show (((b.val * 512 + t.val) * 512 + c.val) * 1 + z.val) / 262144 = b.val; omega
    | ⟨1, _⟩ => show (((b.val * 512 + t.val) * 512 + c.val) * 1 + z.val) / 512 % 512 = t.val; omega
    | ⟨2, _⟩ => show (((b.val * 512 + t.val) * 512 + c.val) * 1 + z.val) % 512 = c.val; omega
  rw [val_main_call1_v5_apply, e, val_main_call1_v4_apply, val_main_call1_v1_apply, val_main_call1_v0_apply,
    val_main_call1_c_apply, window_apply x1 x2 b t c, widx_not_neg, select_zero]

/-- A fold of `and` from 1 over words that are all 1 is 1. -/
theorem fold_andi_ones {ι : Type} [DecidableEq ι] (s : Finset ι) (f : ι → BitVec 1) (hf : ∀ k ∈ s, f k = 1#1) :
    s.fold IntOp.andi 1#1 f = 1#1 := by
  revert hf
  refine Finset.induction_on s (fun _ => Finset.fold_empty) ?_
  intro a s ha ih hf
  rw [Finset.fold_insert ha, hf a (Finset.mem_insert_self a s), ih (fun k hk => hf k (Finset.mem_insert_of_mem hk))]
  rfl

/-- The range test of `take_along_axis` holds at every position. -/
theorem valid_apply (x1 x2 : (⟨S32x512, .i32⟩ : BufTy).Contents (Elt F)) (b : Fin 32) (t c : Fin 512) :
    val_main_call1_v12 (F := F) x1 x2 (ix3 b t c) = 1#1 := by
  have hred : S32x512x512x1.Reduces [3] S32x512x512 := by decide
  unfold val_main_call1_v12
  rw [Host.reduce_eq_fold_single IntOp.andi _ _ reducesTo_S32x512x512x1_S32x512x512_d3 hred h_S_ (ix3 b t c)]
  show (Finset.univ : Finset (Fin 1)).fold IntOp.andi 1#1
    (fun k => val_main_call1_v11 (F := F) x1 x2 (hred.lift (ix3 b t c) k)) = 1#1
  refine fold_andi_ones _ _ (fun (k : Fin 1) _ => ?_)
  have hl : hred.lift (ix3 b t c) k = ix4 b t c k := by
    funext a; apply Fin.ext
    match a with
    | ⟨0, _⟩ => rfl
    | ⟨1, _⟩ => rfl
    | ⟨2, _⟩ => rfl
    | ⟨3, _⟩ => rfl
  rw [hl, val_main_call1_v11_apply, val_main_call1_v7_apply, val_main_call1_v10_apply, takeIdx_apply x1 x2 b t c k,
    val_main_call1_v6_apply, val_main_call1_c_2_apply, val_main_call1_v9_apply, val_main_call1_v8_apply,
    val_main_call1_c_1_apply, widx_ge_zero, widx_le_100]
  rfl

end AnyFloat

/-! ## The batched gather along the window axis -/

/-- The gather of `take_along_axis`, read at `(b, t, c)`: the operand at `(b, t, ·)` in the column its index names, read
    signed and clamped into [0, 100]. -/
theorem take_apply {α : Type} (A : S32x512x101.Idx → α) (idx : IVec S32x512x512x1 32) (b : Fin 32) (t c : Fin 512) :
    Host.gather gather_S32x512x101_S32x512x512x1_S32x512x512_n_2_01_01_2_3_111 A idx (ix3 b t c)
      = A (ix3 b t ⟨min (idx (ix4 b t c (0 : Fin 1))).toInt.toNat 100, by omega⟩) := by
  unfold Host.gather
  refine congrArg A (funext fun a => Fin.ext ?_)
  match a with
  | ⟨0, _⟩ =>
    have h1 : gather_S32x512x101_S32x512x512x1_S32x512x512_n_2_01_01_2_3_111.start (ix3 b t c) idx (0 : Fin 3) = 0 := rfl
    have h2 : gather_S32x512x101_S32x512x512x1_S32x512x512_n_2_01_01_2_3_111.batchCoord (ix3 b t c) (0 : Fin 3) = b.val := rfl
    have h3 : gather_S32x512x101_S32x512x512x1_S32x512x512_n_2_01_01_2_3_111.offCoord (ix3 b t c) (0 : Fin 3) = 0 := rfl
    show gather_S32x512x101_S32x512x512x1_S32x512x512_n_2_01_01_2_3_111.start (ix3 b t c) idx (0 : Fin 3)
      + gather_S32x512x101_S32x512x512x1_S32x512x512_n_2_01_01_2_3_111.batchCoord (ix3 b t c) (0 : Fin 3)
      + gather_S32x512x101_S32x512x512x1_S32x512x512_n_2_01_01_2_3_111.offCoord (ix3 b t c) (0 : Fin 3) = b.val
    rw [h1, h2, h3]
    omega
  | ⟨1, _⟩ =>
    have h1 : gather_S32x512x101_S32x512x512x1_S32x512x512_n_2_01_01_2_3_111.start (ix3 b t c) idx (1 : Fin 3) = 0 := rfl
    have h2 : gather_S32x512x101_S32x512x512x1_S32x512x512_n_2_01_01_2_3_111.batchCoord (ix3 b t c) (1 : Fin 3) = t.val := rfl
    have h3 : gather_S32x512x101_S32x512x512x1_S32x512x512_n_2_01_01_2_3_111.offCoord (ix3 b t c) (1 : Fin 3) = 0 := rfl
    show gather_S32x512x101_S32x512x512x1_S32x512x512_n_2_01_01_2_3_111.start (ix3 b t c) idx (1 : Fin 3)
      + gather_S32x512x101_S32x512x512x1_S32x512x512_n_2_01_01_2_3_111.batchCoord (ix3 b t c) (1 : Fin 3)
      + gather_S32x512x101_S32x512x512x1_S32x512x512_n_2_01_01_2_3_111.offCoord (ix3 b t c) (1 : Fin 3) = t.val
    rw [h1, h2, h3]
    omega
  | ⟨2, _⟩ =>
    have hs : gather_S32x512x101_S32x512x512x1_S32x512x512_n_2_01_01_2_3_111.siIdx (ix3 b t c) ⟨0, by decide⟩
        = ix4 b t c (0 : Fin 1) := by
      funext e; apply Fin.ext
      match e with
      | ⟨0, _⟩ => rfl
      | ⟨1, _⟩ => rfl
      | ⟨2, _⟩ => rfl
      | ⟨3, _⟩ => rfl
    show min (idx (gather_S32x512x101_S32x512x512x1_S32x512x512_n_2_01_01_2_3_111.siIdx (ix3 b t c) ⟨0, by decide⟩)).toInt.toNat (101 - 1)
      + 0 + 0 = min (idx (ix4 b t c (0 : Fin 1))).toInt.toNat 100
    rw [hs]
    omega

/-! ## The scores and the softmax -/

variable (x0 x1 x2 x3 : (⟨S32x512, .i32⟩ : BufTy).Contents (Elt Ideal))
  (x4 : (⟨S20000x101, .f32⟩ : BufTy).Contents (Elt Ideal)) (x5 : (⟨S101, .f32⟩ : BufTy).Contents (Elt Ideal))

/-- The reference's masked scores are the specification's. -/
theorem logits_apply (b : Fin 32) (t c : Fin 512) :
    val_main_v24 (F := Ideal) x0 x1 x2 x3 x4 x5 (ix3 b t c) = score (val_main_v9 (F := Ideal) x0 x4 x5) x1 x2 x3 b t c := by
  have e : idx_main_v19 (idx_main_v23 (ix3 b t c)) = ix2 b c := by
    funext a; apply Fin.ext
    match a with
    | ⟨0, _⟩ => rfl
    | ⟨1, _⟩ => rfl
  have hg : val_main_call1_v13 (F := Ideal) x0 x1 x2 x4 x5 (ix3 b t c)
      = val_main_v9 (F := Ideal) x0 x4 x5 (ix3 b t (wcol (x2 (ix2 b c)) (x1 (ix2 b t)))) := by
    unfold val_main_call1_v13
    refine (take_apply (val_main_v9 (F := Ideal) x0 x4 x5) (val_main_call1_v5 (F := Ideal) x1 x2) b t c).trans ?_
    refine congrArg (fun w => val_main_v9 (F := Ideal) x0 x4 x5 (ix3 b t w)) (Fin.ext ?_)
    show min (val_main_call1_v5 (F := Ideal) x1 x2 (ix4 b t c (0 : Fin 1))).toInt.toNat 100
      = (widx (x2 (ix2 b c)) (x1 (ix2 b t))).toNat
    rw [takeIdx_apply (F := Ideal) x1 x2 b t c (0 : Fin 1)]
    exact widx_clamped _ _
  rw [val_main_v24_apply, val_main_v18_apply, valid_apply (F := Ideal) x1 x2 b t c, select_one, hg, val_main_v23_apply,
    val_main_v22_apply, val_main_v20_apply, val_main_v19_apply, val_main_v21_apply, val_main_cst_apply, e]
  rfl

/-- THE REFERENCE'S RESULT is `G` of its curves, the two time-stamp arrays and the mask. -/
theorem result_eq :
    val_main_v35 (F := Ideal) x0 x1 x2 x3 x4 x5 = G (val_main_v9 (F := Ideal) x0 x4 x5) x1 x2 x3 := by
  have hred : S32x512x512.Reduces [2] S32x512 := by decide
  funext i
  obtain ⟨b, t, c, rfl⟩ : ∃ (b : Fin 32) (t c : Fin 512), i = ix3 b t c := ⟨i 0, i 1, i 2, eq_ix3 i⟩
  have hl : ∀ k : Fin 512, hred.lift (ix2 b t) k = ix3 b t k := by
    intro k
    funext a; apply Fin.ext
    match a with
    | ⟨0, _⟩ => rfl
    | ⟨1, _⟩ => rfl
    | ⟨2, _⟩ => rfl
  have hM : val_main_v27 (F := Ideal) x0 x1 x2 x3 x4 x5 (ix2 b t)
      = rowMax (score (val_main_v9 (F := Ideal) x0 x4 x5) x1 x2 x3 b t) := by
    rw [val_main_v27_apply, val_main_v26_apply, val_main_cst_5_apply]
    unfold val_main_v25
    rw [Host.reduce_eq_fold_single FloatOps.maximumf _ _ reducesTo_S32x512x512_S32x512_d2 hred h_S_ (ix2 b t)]
    show max (Ideal.ofBits .f32 0xFF800000#32) ((Finset.univ : Finset (Fin 512)).fold max (Ideal.ofBits .f32 0xFF800000#32)
      (fun k => val_main_v24 (F := Ideal) x0 x1 x2 x3 x4 x5 (hred.lift (ix2 b t) k))) = _
    have hf : (fun k : Fin 512 => val_main_v24 (F := Ideal) x0 x1 x2 x3 x4 x5 (hred.lift (ix2 b t) k))
        = score (val_main_v9 (F := Ideal) x0 x4 x5) x1 x2 x3 b t :=
      funext fun k => (congrArg (val_main_v24 (F := Ideal) x0 x1 x2 x3 x4 x5) (hl k)).trans (logits_apply x0 x1 x2 x3 x4 x5 b t k)
    exact (congrArg (fun g => max (Ideal.ofBits .f32 0xFF800000#32)
      ((Finset.univ : Finset (Fin 512)).fold max (Ideal.ofBits .f32 0xFF800000#32) g)) hf).trans (max_rowMax _)
  have e28 : ∀ k : Fin 512, idx_main_v28 (idx_main_v29 (ix3 b t k)) = ix2 b t := by
    intro k
    funext a; apply Fin.ext
    match a with
    | ⟨0, _⟩ => rfl
    | ⟨1, _⟩ => rfl
  have hE : ∀ k : Fin 512, val_main_v31 (F := Ideal) x0 x1 x2 x3 x4 x5 (ix3 b t k)
      = Ideal.exp (score (val_main_v9 (F := Ideal) x0 x4 x5) x1 x2 x3 b t k
          - rowMax (score (val_main_v9 (F := Ideal) x0 x4 x5) x1 x2 x3 b t)) := by
    intro k
    rw [val_main_v31_apply, val_main_v30_apply, logits_apply x0 x1 x2 x3 x4 x5 b t k, val_main_v29_apply, val_main_v28_apply, e28 k, hM]
    rfl
  have e33 : idx_main_v33 (idx_main_v34 (ix3 b t c)) = ix2 b t := by
    funext a; apply Fin.ext
    match a with
    | ⟨0, _⟩ => rfl
    | ⟨1, _⟩ => rfl
  have e32 : ∀ k : Fin 512, idx_main_v32 (ix2 b t) k = ix3 b t k := by
    intro k
    funext a; apply Fin.ext
    match a with
    | ⟨0, _⟩ => rfl
    | ⟨1, _⟩ => rfl
    | ⟨2, _⟩ => rfl
  rw [val_main_v35_apply, hE c, val_main_v34_apply, val_main_v33_apply, e33, val_main_v32_apply, val_main_cst_6_apply]
  unfold G softmaxRow
  show Ideal.div _ (Ideal.ofBits .f32 0x00000000#32 + _) = _
  rw [Ideal.ofBits_zero_f32, zero_add]
  refine congrArg (Ideal.div _) (Finset.sum_congr rfl fun (k : Fin 512) _ => ?_)
  rw [e32 k, hE k]

end Cert.ReferenceIdeal.RefValue

end
-- ==== Proof.lean ====
/-
  Time attention by a select-overwrite lookup, against its jnp reference, over the extended reals.

  THE OPERATOR.  For a batch `b`, a target token `t` and a context token `c`, the window index
  `w = clamp (context_ts[b, c] − target_ts[b, t], −50, 50) + 50` is one of 0, …, 100 (Window.lean), the score is
  `curve[b, t, w] + mask[b, c] · (−10⁹)` with `curve = embedding[concept] + bias`, and the result is the softmax of
  the scores over `c` (Spec.lean: `G`).

  THE KERNEL computes `curve` on the host, and per grid point (a batch and a tile of 32 targets) finds `curve[b, t, w]`
  without indexing: it starts from column 0 and, for each column 1, …, 100, overwrites the running tile where the window
  index equals that column (Overwrite.lean, Lookup.lean); then it adds the mask term and takes the softmax of each row
  with lane reductions (SoftRows.lean, Body.lean).  Its blocks tile the result, so the result array is `G` of the
  curves and the three integer arguments (Whole.lean).

  THE REFERENCE indexes `curve` by `take_along_axis`, whose guards (count from the end if negative; NaN outside
  [0, 100]; clamp) never bite because `w` is in range, and applies `jax.nn.softmax`, whose extra maximum with −∞ changes
  nothing (RefIsG.lean, over the reference's run, RefRun.lean / RefStages.lean).

  Both sides are therefore the same expression of the same scores: no algebraic law joins them and the precondition
  (finite inputs) is never opened.  The ideal pass rewrote nothing, so `preserves` is trivial, and the three frames
  are the generated ones (the reference's being its run with the result dropped).
-/
import proofs.«400888_j33715493274067_2_alg».proof.Defs
import proofs.«400888_j33715493274067_2_alg».proof.Proof.Gen.Kernel
import proofs.«400888_j33715493274067_2_alg».proof.Proof.Gen.Kernel.Skeleton
import proofs.«400888_j33715493274067_2_alg».proof.Proof.Gen.Kernel.Launch
import proofs.«400888_j33715493274067_2_alg».proof.Proof.Gen.Kernel.Points
import proofs.«400888_j33715493274067_2_alg».proof.Proof.Gen.Kernel.Frame
import proofs.«400888_j33715493274067_2_alg».proof.Proof.Gen.KernelIdeal
import proofs.«400888_j33715493274067_2_alg».proof.Proof.Gen.KernelIdeal.Skeleton
import proofs.«400888_j33715493274067_2_alg».proof.Proof.Gen.KernelIdeal.Launch
import proofs.«400888_j33715493274067_2_alg».proof.Proof.Gen.KernelIdeal.Points
import proofs.«400888_j33715493274067_2_alg».proof.Proof.Gen.KernelIdeal.Frame
import proofs.«400888_j33715493274067_2_alg».proof.Proof.Gen.KernelIdeal.Value
import proofs.«400888_j33715493274067_2_alg».proof.Proof.Gen.ReferenceIdeal
import proofs.«400888_j33715493274067_2_alg».proof.Proof.Gen.Pre_finite_inputs
import proofs.«400888_j33715493274067_2_alg».proof.Proof.Whole
import proofs.«400888_j33715493274067_2_alg».proof.Proof.RefRun
import proofs.«400888_j33715493274067_2_alg».proof.Proof.RefIsG
import Idealize.ShloMosaic.Adequacy
import Idealize.ShloMosaic.Init

noncomputable section

namespace Cert.Proof

open Idealize.ShloMosaic Idealize.SL.Sem Cert.TimeAttention

/-- The word-level kernel runs and leaves its arguments as they were: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- The curves as the kernel's host operations spell them and as the reference's stages do are one array: the same
    gather of the embedding's rows plus the same broadcast bias. -/
theorem curves_eq (concepts : IVec Cert.KernelIdeal.S32x512 32) (emb : FVec Ideal Cert.KernelIdeal.S20000x101 .f32)
    (bias : FVec Ideal Cert.KernelIdeal.S101 .f32) :
    Cert.ReferenceIdeal.ReadP.val_main_v9 (F := Ideal) concepts emb bias = Cert.KernelIdeal.Whole.curves concepts emb bias :=
  rfl

/-- From memories that agree on the arguments both programs end with `G` of the curves, the two time-stamp arrays and
    the mask in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  rw [Cert.ReferenceIdeal.RefValue.result_eq, a0, a1, a2, a3, a4, a5, curves_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
